-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x15 : S_.BroadcastsInDim S50000x15 (![] : Fin 0 → Fin S50000x15.rank)
  reducesTo_S50000x15_S_d0_1 : S50000x15.ReducesTo [0, 1] S_
  bcast_S_S800000x15 : S_.BroadcastsInDim S800000x15 (![] : Fin 0 → Fin S800000x15.rank)
  reducesTo_S800000x15_S_d0_1 : S800000x15.ReducesTo [0, 1] S_
  bcast_S_S800000x32 : S_.BroadcastsInDim S800000x32 (![] : Fin 0 → Fin S800000x32.rank)
  reducesTo_S800000x32_S_d0_1 : S800000x32.ReducesTo [0, 1] S_
  bcast_S_S800000x1 : S_.BroadcastsInDim S800000x1 (![] : Fin 0 → Fin S800000x1.rank)
  reducesTo_S800000x1_S_d0_1 : S800000x1.ReducesTo [0, 1] S_
  bcast_S_S35x128 : S_.BroadcastsInDim S35x128 (![] : Fin 0 → Fin S35x128.rank)
  reducesTo_S35x128_S_d0_1 : S35x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S128x3 .f32) (main_arg14 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x3 .f32 := Host.absf main_arg13
  let main_cst_20 : FVec F S_ .f32 := constant S_ .f32 0x7F800000#32
  let main_v55 : FVec F S128x3 .f32 := broadcastInDim S128x3 ![] bcast_S_S128x3 main_cst_20
  let main_v56 : IVec S128x3 1 := cmpf .olt main_v54 main_v55
  let main_c_21 : IVec S_ 1 := constantI S_ 1 1#1
  let main_v57 : IVec S_ 1 := (fun x v => Host.reduce IntOp.andi x v reducesTo_S128x3_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S35x128 .f32) (main_arg12 : FVec F S128 .f32) (main_arg13 : FVec F S128x3 .f32) (main_arg14 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S35x128 .f32 := Host.absf main_arg11
  let main_cst_16 : FVec F S_ .f32 := constant S_ .f32 0x7F800000#32
  let main_v45 : FVec F S35x128 .f32 := broadcastInDim S35x128 ![] bcast_S_S35x128 main_cst_16
  let main_v46 : IVec S35x128 1 := cmpf .olt main_v44 main_v45
  let main_c_17 : IVec S_ 1 := constantI S_ 1 1#1
  let main_v47 : IVec S_ 1 := (fun x v => Host.reduce IntOp.andi x v reducesTo_S35x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S800000x1 .f32) (main_arg7 : FVec F S35x128 .f32) (main_arg8 : FVec F S128 .f32) (main_arg9 : FVec F S128x128 .f32) (main_arg10 : FVec F S128 .f32) (main_arg11 : FVec F S35x128 .f32) (main_arg12 : FVec F S128 .f32) (main_arg13 : FVec F S128x3 .f32) (main_arg14 : FVec F S3 .f32) (main_v13 : IVec S_ 1) (main_v16 : IVec S800000x32 1) : IVec S_ 1 :=
  let main_c_5 : IVec S_ 1 := constantI S_ 1 1#1
  let main_v17 : IVec S_ 1 := (fun x v => Host.reduce IntOp.andi x v reducesTo_S800000x32_S_d0_1 h_S_) main_v16 main_c_5
  let main_v18 : IVec S_ 1 := andi main_v13 main_v17
  let main_v19 : FVec F S800000x1 .f32 := Host.absf main_arg6
  let main_cst_6 : FVec F S_ .f32 := constant S_ .f32 0x7F800000#32
  let main_v20 : FVec F S800000x1 .f32 := broadcastInDim S800000x1 ![] bcast_S_S800000x1 main_cst_6
  let main_v21 : IVec S800000x1 1 := cmpf .olt main_v19 main_v20
  let main_c_7 : IVec S_ 1 := constantI S_ 1 1#1
  let main_v22 : IVec S_ 1 := (fun x v => Host.reduce IntOp.andi x v reducesTo_S800000x1_S_d0_1 h_S_) main_v21 main_c_7
  let main_v23 : IVec S_ 1 := andi main_v18 main_v22
  let main_v24 : FVec F S35x128 .f32 := Host.absf main_arg7
  let main_cst_8 : FVec F S_ .f32 := constant S_ .f32 0x7F800000#32
  let main_v25 : FVec F S35x128 .f32 := broadcastInDim S35x128 ![] bcast_S_S35x128 main_cst_8
  let main_v26 : IVec S35x128 1 := cmpf .olt main_v24 main_v25
  let main_c_9 : IVec S_ 1 := constantI S_ 1 1#1
  let main_v27 : IVec S_ 1 := (fun x v => Host.reduce IntOp.andi x v reducesTo_S35x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : FVec F S50000x15 .f32) (main_arg2 : IVec S800000 32) (main_arg3 : IVec S800000 32) (main_arg4 : FVec F S800000x15 .f32) (main_arg5 : FVec F S800000x32 .f32) (main_arg6 : FVec F S800000x1 .f32) (main_arg7 : FVec F S35x128 .f32) (main_arg8 : FVec F S128 .f32) (main_arg9 : FVec F S128x128 .f32) (main_arg10 : FVec F S128 .f32) (main_arg11 : FVec F S35x128 .f32) (main_arg12 : FVec F S128 .f32) (main_arg13 : FVec F S128x3 .f32) (main_arg14 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x15 .f32 := Host.absf main_arg1
  let main_cst_0 : FVec F S_ .f32 := constant S_ .f32 0x7F800000#32
  let main_v5 : FVec F S50000x15 .f32 := broadcastInDim S50000x15 ![] bcast_S_S50000x15 main_cst_0
  let main_v6 : IVec S50000x15 1 := cmpf .olt main_v4 main_v5
  let main_c_1 : IVec S_ 1 := constantI S_ 1 1#1
  let main_v7 : IVec S_ 1 := (fun x v => Host.reduce IntOp.andi x v reducesTo_S50000x15_S_d0_1 h_S_) main_v6 main_c_1
  let main_v8 : IVec S_ 1 := andi main_v3 main_v7
  let main_v9 : FVec F S800000x15 .f32 := Host.absf main_arg4
  let main_cst_2 : FVec F S_ .f32 := constant S_ .f32 0x7F800000#32
  let main_v10 : FVec F S800000x15 .f32 := broadcastInDim S800000x15 ![] bcast_S_S800000x15 main_cst_2
  let main_v11 : IVec S800000x15 1 := cmpf .olt main_v9 main_v10
  let main_c_3 : IVec S_ 1 := constantI S_ 1 1#1
  let main_v12 : IVec S_ 1 := (fun x v => Host.reduce IntOp.andi x v reducesTo_S800000x15_S_d0_1 h_S_) main_v11 main_c_3
  let main_v13 : IVec S_ 1 := andi main_v8 main_v12
  let main_v14 : FVec F S800000x32 .f32 := Host.absf main_arg5
  let main_cst_4 : FVec F S_ .f32 := constant S_ .f32 0x7F800000#32
  let main_v15 : FVec F S800000x32 .f32 := broadcastInDim S800000x32 ![] bcast_S_S800000x32 main_cst_4
  let main_v16 : IVec S800000x32 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S1x128 : Shape := ⟨2, ![1, 128]⟩
abbrev S1x3 : Shape := ⟨2, ![1, 3]⟩
abbrev S800000x128 : Shape := ⟨2, ![800000, 128]⟩
abbrev S800000x3 : Shape := ⟨2, ![800000, 3]⟩
abbrev S3200x15 : Shape := ⟨2, ![3200, 15]⟩
abbrev S3200x32 : Shape := ⟨2, ![3200, 32]⟩
abbrev S3200x128 : Shape := ⟨2, ![3200, 128]⟩
abbrev S3200x3 : Shape := ⟨2, ![3200, 3]⟩
abbrev S3200 : Shape := ⟨1, ![3200]⟩
abbrev S3200x1 : Shape := ⟨2, ![3200, 1]⟩
abbrev S3200x5 : Shape := ⟨2, ![3200, 5]⟩
abbrev S3200x7 : Shape := ⟨2, ![3200, 7]⟩
abbrev S3200x35 : Shape := ⟨2, ![3200, 35]⟩

abbrev nBuf : Space → Nat
  | .hbm => 44
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x15, .f32⟩
  | .hbm, ⟨2, _⟩ => ⟨S800000, .i32⟩
  | .hbm, ⟨3, _⟩ => ⟨S800000, .i32⟩
  | .hbm, ⟨4, _⟩ => ⟨S800000x15, .f32⟩
  | .hbm, ⟨5, _⟩ => ⟨S800000x32, .f32⟩
  | .hbm, ⟨6, _⟩ => ⟨S800000x1, .f32⟩
  | .hbm, ⟨7, _⟩ => ⟨S35x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S35x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x15, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x15, .f32⟩
  | .hbm, ⟨33, _⟩ => ⟨S800000x15, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x3, .f32⟩
  | .hbm, ⟨38, _⟩ => ⟨S35x128, .bf16⟩
  | .hbm, ⟨39, _⟩ => ⟨S128x128, .bf16⟩
  | .hbm, ⟨40, _⟩ => ⟨S35x128, .bf16⟩
  | .hbm, ⟨41, _⟩ => ⟨S128x3, .bf16⟩
  | .hbm, ⟨42, _⟩ => ⟨S800000x128, .f32⟩
  | .hbm, ⟨43, _⟩ => ⟨S800000x3, .f32⟩
  | .local _ .vmem, ⟨0, _⟩ => ⟨S3200x15, .f32⟩
  | .local _ .vmem, ⟨1, _⟩ => ⟨S3200x15, .f32⟩
  | .local _ .vmem, ⟨2, _⟩ => ⟨S3200x32, .f32⟩
  | .local _ .vmem, ⟨3, _⟩ => ⟨S3200x32, .f32⟩
  | .local _ .vmem, ⟨4, _⟩ => ⟨S35x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S35x128, .bf16⟩
  | .local _ .vmem, ⟨9, _⟩ => ⟨S1x128, .f32⟩
  | .local _ .vmem, ⟨10, _⟩ => ⟨S128x3, .bf16⟩
  | .local _ .vmem, ⟨11, _⟩ => ⟨S1x3, .f32⟩
  | .local _ .vmem, ⟨12, _⟩ => ⟨S3200x128, .f32⟩
  | .local _ .vmem, ⟨13, _⟩ => ⟨S3200x128, .f32⟩
  | .local _ .vmem, ⟨14, _⟩ => ⟨S3200x3, .f32⟩
  | .local _ .vmem, ⟨15, _⟩ => ⟨S3200x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S35x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S35x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3200x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S3_S1x3 : S3.ShapeCasts S1x3
  bitsLt_bf16_f32 : FTy.bits .bf16 < FTy.bits .f32
  inb_S3200x15_S3200x15_0_0 : ∀ a, (![0, 0] : Fin 2 → Nat) a + S3200x15.size a ≤ S3200x15.size a
  h_S3200x15 : 0 < S3200x15.numel
  shapeCasts_S3200x15_S3200x15 : S3200x15.ShapeCasts S3200x15
  inb_S3200x32_S3200x32_0_0 : ∀ a, (![0, 0] : Fin 2 → Nat) a + S3200x32.size a ≤ S3200x32.size a
  h_S3200x32 : 0 < S3200x32.numel
  slices_S3200x15_o0_0_S3200x3 : S3200x15.Slices ![0, 0] S3200x3
  reduces_S3200x3_S3200 : S3200x3.Reduces [1] S3200
  shapeCasts_S3200_S3200x1 : S3200.ShapeCasts S3200x1
  slices_S3200x15_o0_3_S3200x5 : S3200x15.Slices ![0, 3] S3200x5
  reduces_S3200x5_S3200 : S3200x5.Reduces [1] S3200
  slices_S3200x15_o0_8_S3200x7 : S3200x15.Slices ![0, 8] S3200x7
  reduces_S3200x7_S3200 : S3200x7.Reduces [1] S3200
  concatenates_S3200x1_S3200x1_S3200x1_S3200x3_d1 : Shape.Concatenates [S3200x1, S3200x1, S3200x1] S3200x3 1
  concatenates_S3200x32_S3200x3_S3200x35_d1 : Shape.Concatenates [S3200x32, S3200x3] S3200x35 1
  inb_S35x128_S35x128_0_0 : ∀ a, (![0, 0] : Fin 2 → Nat) a + S35x128.size a ≤ S35x128.size a
  h_S35x128 : 0 < S35x128.numel
  shapeCasts_S35x128_S35x128 : S35x128.ShapeCasts S35x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3200x128_S3200x128_0_0 : ∀ a, (![0, 0] : Fin 2 → Nat) a + S3200x128.size a ≤ S3200x128.size a
  h_S3200x128 : 0 < S3200x128.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S3200x3 : S1x3.Broadcasts S3200x3
  inb_S3200x3_S3200x3_0_0 : ∀ a, (![0, 0] : Fin 2 → Nat) a + S3200x3.size a ≤ S3200x3.size a
  h_S3200x3 : 0 < S3200x3.numel
  gather_S50000x15_S800000x1_S800000x15_1_0_n_n_0_1_115_wf : GatherDims.WF S50000x15 S800000x1 S800000x15 [1] [0] [] [0] [] 1 ![1, 15]
  dot_S3200x35_S35x128_S3200x128_1_0_0_1_n_n_wf : DotDims.WF S3200x35 S35x128 S3200x128 [1] [0] [0] [1] [] []
  dot_S3200x128_S128x128_S3200x128_1_0_0_1_n_n_wf : DotDims.WF S3200x128 S128x128 S3200x128 [1] [0] [0] [1] [] []
  dot_S3200x128_S128x3_S3200x3_1_0_0_1_n_n_wf : DotDims.WF S3200x128 S128x3 S3200x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x15.size a ≤ S800000x15.size a
  hwx0_0 : ∀ i : grid0.Coords, EltTy.bits .f32 = 32 ∨ (Rect.block (s := S800000x15) S3200x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S800000x32.size a
  hwx0_1 : ∀ i : grid0.Coords, EltTy.bits .f32 = 32 ∨ (Rect.block (s := S800000x32) S3200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S35x128.size a ≤ S35x128.size a
  hwx0_2 : ∀ i : grid0.Coords, EltTy.bits .bf16 = 32 ∨ (Rect.block (s := S35x128) S35x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S35x128.size a ≤ S35x128.size a
  hwx0_6 : ∀ i : grid0.Coords, EltTy.bits .bf16 = 32 ∨ (Rect.block (s := S35x128) S35x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x3.size a ≤ S128x3.size a
  hwx0_8 : ∀ i : grid0.Coords, EltTy.bits .bf16 = 32 ∨ (Rect.block (s := S128x3) S128x3.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3.size a ≤ S1x3.size a
  hwx0_9 : ∀ i : grid0.Coords, EltTy.bits .f32 = 32 ∨ (Rect.block (s := S1x3) S1x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S800000x128.size a
  hwx0_10 : ∀ i : grid0.Coords, EltTy.bits .f32 = 32 ∨ (Rect.block (s := S800000x128) S3200x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x3.size a ≤ S800000x3.size a
  hwx0_11 : ∀ i : grid0.Coords, EltTy.bits .f32 = 32 ∨ (Rect.block (s := S800000x3) S3200x3.size (cc0_transform_11 i) (hinb0_11 i)).WholeWords (EltTy.packing .f32)

variable [Facts₀]

def gather_S50000x15_S800000x1_S800000x15_1_0_n_n_0_1_115 : GatherDims S50000x15 S800000x1 S800000x15 where
  offsetDims := [1]
  collapsedSliceDims := [0]
  operandBatchingDims := []
  startIndicesBatchingDims := []
  startIndexMap := [0]
  indexVectorDim := 1
  sliceSizes := ![1, 15]
  wf := gather_S50000x15_S800000x1_S800000x15_1_0_n_n_0_1_115_wf
def dot_S3200x35_S35x128_S3200x128_1_0_0_1_n_n : DotDims S3200x35 S35x128 S3200x128 where
  lhsContracting := [1]
  rhsContracting := [0]
  lhsNonContracting := [0]
  rhsNonContracting := [1]
  lhsBatch := []
  rhsBatch := []
  wf := dot_S3200x35_S35x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x3_S3200x3_1_0_0_1_n_n : DotDims S3200x128 S128x3 S3200x3 where
  lhsContracting := [1]
  rhsContracting := [0]
  lhsNonContracting := [0]
  rhsNonContracting := [1]
  lhsBatch := []
  rhsBatch := []
  wf := dot_S3200x128_S128x3_S3200x3_1_0_0_1_n_n_wf

abbrev win0_0 : Pipeline.Window sig grid0 :=
  Pipeline.Window.ofSpec (Memref.whole main_v14) S3200x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S35x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S35x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23_0) S3200x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v23_1) S3200x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x15 : Shape := ⟨2, ![50000, 15]⟩
abbrev S800000 : Shape := ⟨1, ![800000]⟩
abbrev S800000x15 : Shape := ⟨2, ![800000, 15]⟩
abbrev S800000x32 : Shape := ⟨2, ![800000, 32]⟩
abbrev S800000x1 : Shape := ⟨2, ![800000, 1]⟩
abbrev S35x128 : Shape := ⟨2, ![35, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩
abbrev S800000x3 : Shape := ⟨2, ![800000, 3]⟩
abbrev S800000x5 : Shape := ⟨2, ![800000, 5]⟩
abbrev S800000x7 : Shape := ⟨2, ![800000, 7]⟩
abbrev S800000x35 : Shape := ⟨2, ![800000, 35]⟩
abbrev S800000x128 : Shape := ⟨2, ![800000, 128]⟩
abbrev S1x128 : Shape := ⟨2, ![1, 128]⟩
abbrev S1x3 : Shape := ⟨2, ![1, 3]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x15, .f32⟩
  | .hbm, ⟨2, _⟩ => ⟨S800000, .i32⟩
  | .hbm, ⟨3, _⟩ => ⟨S800000, .i32⟩
  | .hbm, ⟨4, _⟩ => ⟨S800000x15, .f32⟩
  | .hbm, ⟨5, _⟩ => ⟨S800000x32, .f32⟩
  | .hbm, ⟨6, _⟩ => ⟨S800000x1, .f32⟩
  | .hbm, ⟨7, _⟩ => ⟨S35x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S35x128, .f32⟩
  | .hbm, ⟨12, _⟩ => ⟨S128, .f32⟩
  | .hbm, ⟨13, _⟩ => ⟨S128x3, .f32⟩
  | .hbm, ⟨14, _⟩ => ⟨S3, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x15, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x15, .f32⟩
  | .hbm, ⟨33, _⟩ => ⟨S800000x15, .f32⟩
  | .hbm, ⟨34, _⟩ => ⟨S800000x3, .f32⟩
  | .hbm, ⟨35, _⟩ => ⟨S800000x3, .f32⟩
  | .hbm, ⟨36, _⟩ => ⟨S800000x3, .f32⟩
  | .hbm, ⟨37, _⟩ => ⟨S_, .f32⟩
  | .hbm, ⟨38, _⟩ => ⟨S800000, .f32⟩
  | .hbm, ⟨39, _⟩ => ⟨S800000x1, .f32⟩
  | .hbm, ⟨40, _⟩ => ⟨S800000x5, .f32⟩
  | .hbm, ⟨41, _⟩ => ⟨S800000x5, .f32⟩
  | .hbm, ⟨42, _⟩ => ⟨S800000x5, .f32⟩
  | .hbm, ⟨43, _⟩ => ⟨S_, .f32⟩
  | .hbm, ⟨44, _⟩ => ⟨S800000, .f32⟩
  | .hbm, ⟨45, _⟩ => ⟨S800000x1, .f32⟩
  | .hbm, ⟨46, _⟩ => ⟨S800000x7, .f32⟩
  | .hbm, ⟨47, _⟩ => ⟨S800000x7, .f32⟩
  | .hbm, ⟨48, _⟩ => ⟨S800000x7, .f32⟩
  | .hbm, ⟨49, _⟩ => ⟨S_, .f32⟩
  | .hbm, ⟨50, _⟩ => ⟨S800000, .f32⟩
  | .hbm, ⟨51, _⟩ => ⟨S800000x1, .f32⟩
  | .hbm, ⟨52, _⟩ => ⟨S800000x3, .f32⟩
  | .hbm, ⟨53, _⟩ => ⟨S800000x35, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S800000x35, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S800000x128, .f32⟩
  | .hbm, ⟨78, _⟩ => ⟨S_, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S800000x128, .f32⟩
  | .hbm, ⟨85, _⟩ => ⟨S800000x3, .f32⟩
  | .hbm, ⟨86, _⟩ => ⟨S1x3, .f32⟩
  | .hbm, ⟨87, _⟩ => ⟨S800000x3, .f32⟩
  | .hbm, ⟨88, _⟩ => ⟨S800000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x15_S800000x3_0_0 : S800000x15.Slices ![0, 0] S800000x3
  reducesTo_S800000x3_S800000_d1 : S800000x3.ReducesTo [1] S800000
  h_S_ : 0 < S_.numel
  slices_S800000x15_S800000x5_0_3 : S800000x15.Slices ![0, 3] S800000x5
  reducesTo_S800000x5_S800000_d1 : S800000x5.ReducesTo [1] S800000
  slices_S800000x15_S800000x7_0_8 : S800000x15.Slices ![0, 8] S800000x7
  reducesTo_S800000x7_S800000_d1 : S800000x7.ReducesTo [1] S800000
  concatenates_S800000x1_S800000x1_S800000x1_S800000x3_d1 : Shape.Concatenates [S800000x1, S800000x1, S800000x1] S800000x3 1
  concatenates_S800000x32_S800000x3_S800000x35_d1 : Shape.Concatenates [S800000x32, S800000x3] S800000x35 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  gather_S50000x15_S800000x1_S800000x15_1_0_n_n_0_1_115_wf : GatherDims.WF S50000x15 S800000x1 S800000x15 [1] [0] [] [0] [] 1 ![1, 15]
  dot_S800000x35_S35x128_S800000x128_1_0_0_1_n_n_wf : DotDims.WF S800000x35 S35x128 S800000x128 [1] [0] [0] [1] [] []
  dot_S800000x128_S128x128_S800000x128_1_0_0_1_n_n_wf : DotDims.WF S800000x128 S128x128 S800000x128 [1] [0] [0] [1] [] []
  dot_S800000x128_S128x3_S800000x3_1_0_0_1_n_n_wf : DotDims.WF S800000x128 S128x3 S800000x3 [1] [0] [0] [1] [] []

variable [Facts₀]

def gather_S50000x15_S800000x1_S800000x15_1_0_n_n_0_1_115 : GatherDims S50000x15 S800000x1 S800000x15 where
  offsetDims := [1]
  collapsedSliceDims := [0]
  operandBatchingDims := []
  startIndicesBatchingDims := []
  startIndexMap := [0]
  indexVectorDim := 1
  sliceSizes := ![1, 15]
  wf := gather_S50000x15_S800000x1_S800000x15_1_0_n_n_0_1_115_wf
def dot_S800000x35_S35x128_S800000x128_1_0_0_1_n_n : DotDims S800000x35 S35x128 S800000x128 where
  lhsContracting := [1]
  rhsContracting := [0]
  lhsNonContracting := [0]
  rhsNonContracting := [1]
  lhsBatch := []
  rhsBatch := []
  wf := dot_S800000x35_S35x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x3_S800000x3_1_0_0_1_n_n : DotDims S800000x128 S128x3 S800000x3 where
  lhsContracting := [1]
  rhsContracting := [0]
  lhsNonContracting := [0]
  rhsNonContracting := [1]
  lhsBatch := []
  rhsBatch := []
  wf := dot_S800000x128_S128x3_S800000x3_1_0_0_1_n_n_wf

class Facts : Prop extends Facts₀ where

variable [Facts]
-- ==== Proof.EdgeFilter.lean ====
/-
  The filter network of one edge, on the extended reals.

  An edge carries 32 radial values ℓ and a 15-component difference vector d, which falls into three pieces of
  widths 3, 5 and 7 (components 0–2, 3–7, 8–14). Its 35 features are ℓ followed by the squared norms of the three
  pieces. A filter is a two-layer perceptron on the features: a dense layer 35 → 128, the activation
  z ↦ z · σ(z) with σ the logistic function 1 / (1 + e⁻ᶻ), and a dense layer 128 → M. Every edge is filtered by
  the same weights, so the result array's row e depends on row e of the radial values and of the differences only.
-/
import Idealize.ShloMosaic.PureOps.Ideal
import Idealize.ShloMosaic.Lib.ValueIdx

noncomputable section

namespace Cert.EdgeFilter

open Idealize.ShloMosaic Idealize.ShloMosaic.ValueIdx

/-- The squared norm of the components o, …, o + w − 1 of a 15-vector. -/
def sqnorm (d : Fin 15 → EReal) (o w : ℕ) (h : o + w ≤ 15) : EReal :=
  ∑ j : Fin w, d ⟨o + j.val, by have := j.isLt; omega⟩ * d ⟨o + j.val, by have := j.isLt; omega⟩

/-- The 35 features of an edge: its 32 radial values, then the squared norms of the three pieces of d. -/
def feat (ℓ : Fin 32 → EReal) (d : Fin 15 → EReal) (k : Fin 35) : EReal :=
  if h : k.val < 32 then ℓ ⟨k.val, h⟩
  else if k.val = 32 then sqnorm d 0 3 (by norm_num)
  else if k.val = 33 then sqnorm d 3 5 (by norm_num)
  else sqnorm d 8 7 (by norm_num)

/-- A dense layer: x · W + b, at output q. -/
def dense {K M : ℕ} (x : Fin K → EReal) (W : Fin K → Fin M → EReal) (b : Fin M → EReal) (q : Fin M) : EReal :=
  (∑ k : Fin K, x k * W k q) + b q

/-- The activation z · σ(z). -/
def silu (z : EReal) : EReal := z * Ideal.logistic z

/-- The filter of one edge: dense, activation, dense. -/
def filter {M : ℕ} (ℓ : Fin 32 → EReal) (d : Fin 15 → EReal) (W1 : Fin 35 → Fin 128 → EReal) (b1 : Fin 128 → EReal)
    (W2 : Fin 128 → Fin M → EReal) (b2 : Fin M → EReal) (q : Fin M) : EReal :=
  dense (fun j => silu (dense (feat ℓ d) W1 b1 j)) W2 b2 q

/-- The filter depends on its six data only. -/
theorem filter_congr {M : ℕ} {ℓ ℓ' : Fin 32 → EReal} {d d' : Fin 15 → EReal} {W1 W1' : Fin 35 → Fin 128 → EReal}
    {b1 b1' : Fin 128 → EReal} {W2 W2' : Fin 128 → Fin M → EReal} {b2 b2' : Fin M → EReal}
    (hℓ : ℓ = ℓ') (hd : d = d') (h1 : W1 = W1') (h2 : b1 = b1') (h3 : W2 = W2') (h4 : b2 = b2') (q : Fin M) :
    filter ℓ d W1 b1 W2 b2 q = filter ℓ' d' W1' b1' W2' b2' q := by
  subst hℓ hd h1 h2 h3 h4
  rfl

/-- The filter applied to each of the 800000 edges: row e of the result from row e of the differences `D` and of the
    radial values `L`. -/
def filterRows {M : ℕ} (D : (⟨2, ![800000, 15]⟩ : Shape).Idx → EReal) (L : (⟨2, ![800000, 32]⟩ : Shape).Idx → EReal)
    (W1 : (⟨2, ![35, 128]⟩ : Shape).Idx → EReal) (b1 : (⟨1, ![128]⟩ : Shape).Idx → EReal)
    (W2 : (⟨2, ![128, M]⟩ : Shape).Idx → EReal) (b2 : (⟨1, ![M]⟩ : Shape).Idx → EReal) :
    (⟨2, ![800000, M]⟩ : Shape).Idx → EReal :=
  fun i => filter (fun k => L (ix2 (i 0) k)) (fun k => D (ix2 (i 0) k)) (fun k j => W1 (ix2 k j)) (fun j => b1 (ix1 j))
    (fun k j => W2 (ix2 k j)) (fun j => b2 (ix1 j)) (i 1)

end Cert.EdgeFilter

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Features.lean ====
/-
  The feature matrix read at an index, for any number of rows.

  The features of n edges are laid out as an [n, 35] matrix: the [n, 32] radial values, then three [n, 1] columns,
  joined along the columns (the three columns first joined into an [n, 3] block). Read at (p, k) that is the
  radial value (p, k) for k < 32 and the first, second or third column's entry of row p for k = 32, 33, 34.
  A column made on the vector unit is the lane sum of the squares of a column slice of the [n, 15] differences,
  kept as a column: at row p the squared norm of that piece of row p.
-/
import Idealize.ShloMosaic.Lib.ValueIdx
import Idealize.ShloMosaic.Lib.ValueLayout
import Idealize.ShloMosaic.Lib.Pipeline.Value
import Idealize.ShloMosaic.PureOps.Ideal.Laws
import proofs.«155197_j53154515255878_1_alg».proof.Proof.EdgeFilter
import proofs.«155197_j53154515255878_1_alg».proof.Proof.LibKeepdims

noncomputable section

namespace Cert.Features

open Idealize.ShloMosaic Idealize.ShloMosaic.ValueIdx Cert.EdgeFilter

variable {α : Type}

/-- Three [n, 1] columns joined into [n, 3], read at (p, t): column t at row p. -/
theorem three_columns_apply {n : ℕ} (c0 c1 c2 : (⟨2, ![n, 1]⟩ : Shape).Idx → α)
    (h3 : Shape.Concatenates [⟨2, ![n, 1]⟩, ⟨2, ![n, 1]⟩, ⟨2, ![n, 1]⟩] ⟨2, ![n, 3]⟩ 1) (p : Fin n) (t : Fin 3) :
    concatenate ⟨2, ![n, 3]⟩ 1 [⟨⟨2, ![n, 1]⟩, c0⟩, ⟨⟨2, ![n, 1]⟩, c1⟩, ⟨⟨2, ![n, 1]⟩, c2⟩] h3 (ix2 p t)
      = if t.val = 0 then c0 (ix2 p (0 : Fin 1)) else if t.val = 1 then c1 (ix2 p (0 : Fin 1)) else c2 (ix2 p (0 : Fin 1)) := by
  have ht : t.val < 3 := t.isLt
  have hi : ∀ b : Fin (⟨2, ![n, 1]⟩ : Shape).rank, b.cast (rfl : (⟨2, ![n, 1]⟩ : Shape).rank = (⟨2, ![n, 3]⟩ : Shape).rank) ≠ 1 →
      ((ix2 p (0 : Fin 1) : (⟨2, ![n, 1]⟩ : Shape).Idx) b).val = ((ix2 p t : (⟨2, ![n, 3]⟩ : Shape).Idx) (b.cast rfl)).val := fun b hb => by
    match b with
    | ⟨0, _⟩ => rfl
    | ⟨1, _⟩ => exact absurd rfl hb
  split
  · next h0 =>
    exact concatenate_apply_piece 1 [⟨⟨2, ![n, 1]⟩, c0⟩, ⟨⟨2, ![n, 1]⟩, c1⟩, ⟨⟨2, ![n, 1]⟩, c2⟩] h3 (ix2 p t) 0
      (by show 0 < 3; omega) _ c0 rfl rfl 0 rfl (ix2 p (0 : Fin 1)) hi (by show 0 + 0 = t.val; omega)
  · split
    · next h0 h1 =>
      exact concatenate_apply_piece 1 [⟨⟨2, ![n, 1]⟩, c0⟩, ⟨⟨2, ![n, 1]⟩, c1⟩, ⟨⟨2, ![n, 1]⟩, c2⟩] h3 (ix2 p t) 1
        (by show 1 < 3; omega) _ c1 rfl rfl 1 rfl (ix2 p (0 : Fin 1)) hi (by show 1 + 0 = t.val; omega)
    · next h0 h1 =>
      exact concatenate_apply_piece 1 [⟨⟨2, ![n, 1]⟩, c0⟩, ⟨⟨2, ![n, 1]⟩, c1⟩, ⟨⟨2, ![n, 1]⟩, c2⟩] h3 (ix2 p t) 2
        (by show 2 < 3; omega) _ c2 rfl rfl 2 rfl (ix2 p (0 : Fin 1)) hi (by show 2 + 0 = t.val; omega)

/-- The [n, 32] block and an [n, 3] block joined into [n, 35], read at (p, k). -/
theorem block_and_three_apply {n : ℕ} (L : (⟨2, ![n, 32]⟩ : Shape).Idx → α) (T : (⟨2, ![n, 3]⟩ : Shape).Idx → α)
    (h35 : Shape.Concatenates [⟨2, ![n, 32]⟩, ⟨2, ![n, 3]⟩] ⟨2, ![n, 35]⟩ 1) (p : Fin n) (k : Fin 35) :
    concatenate ⟨2, ![n, 35]⟩ 1 [⟨⟨2, ![n, 32]⟩, L⟩, ⟨⟨2, ![n, 3]⟩, T⟩] h35 (ix2 p k)
      = if h : k.val < 32 then L (ix2 p ⟨k.val, h⟩) else T (ix2 p ⟨k.val - 32, by have := k.isLt; omega⟩) := by
  have hk : k.val < 35 := k.isLt
  split
  · next h =>
    exact concatenate_pair_apply_left 1 L T h35 (ix2 p k) rfl (ix2 p ⟨k.val, h⟩) fun b => by
      match b with
      | ⟨0, _⟩ => rfl
      | ⟨1, _⟩ => rfl
  · next h =>
    refine concatenate_pair_apply_right 1 L T h35 (ix2 p k) rfl rfl (ix2 p ⟨k.val - 32, by omega⟩) (fun b hb => ?_) ?_
    · match b with
      | ⟨0, _⟩ => rfl
      | ⟨1, _⟩ => exact absurd rfl hb
    · show (k.val - 32) + 32 = k.val
      omega

/-- The feature matrix at (p, k): the radial value for k < 32, else the column k − 32 at row p. -/
theorem features_apply {n : ℕ} (L : (⟨2, ![n, 32]⟩ : Shape).Idx → EReal) (c0 c1 c2 : (⟨2, ![n, 1]⟩ : Shape).Idx → EReal)
    (h3 : Shape.Concatenates [⟨2, ![n, 1]⟩, ⟨2, ![n, 1]⟩, ⟨2, ![n, 1]⟩] ⟨2, ![n, 3]⟩ 1)
    (h35 : Shape.Concatenates [⟨2, ![n, 32]⟩, ⟨2, ![n, 3]⟩] ⟨2, ![n, 35]⟩ 1) (d : Fin 15 → EReal) (p : Fin n)
    (e0 : c0 (ix2 p (0 : Fin 1)) = sqnorm d 0 3 (by norm_num)) (e1 : c1 (ix2 p (0 : Fin 1)) = sqnorm d 3 5 (by norm_num))
    (e2 : c2 (ix2 p (0 : Fin 1)) = sqnorm d 8 7 (by norm_num)) (k : Fin 35) :
    concatenate ⟨2, ![n, 35]⟩ 1 [⟨⟨2, ![n, 32]⟩, L⟩, ⟨⟨2, ![n, 3]⟩,
        concatenate ⟨2, ![n, 3]⟩ 1 [⟨⟨2, ![n, 1]⟩, c0⟩, ⟨⟨2, ![n, 1]⟩, c1⟩, ⟨⟨2, ![n, 1]⟩, c2⟩] h3⟩] h35 (ix2 p k)
      = feat (fun t => L (ix2 p t)) d k := by
  have hk : k.val < 35 := k.isLt
  rw [block_and_three_apply L _ h35 p k]
  unfold feat
  split
  · rfl
  · next h =>
    rw [three_columns_apply c0 c1 c2 h3 p ⟨k.val - 32, by omega⟩, e0, e1, e2]
    show (if k.val - 32 = 0 then _ else if k.val - 32 = 1 then _ else _) = _
    by_cases h32 : k.val = 32
    · rw [if_pos (by omega), if_pos h32]
    · by_cases h33 : k.val = 33
      · rw [if_neg (by omega), if_pos (by omega), if_neg h32, if_pos h33]
      · rw [if_neg (by omega), if_neg (by omega), if_neg h32, if_neg h33]

/-- A column made on the vector unit: the lane sum, from the zero pattern, of the squares of the columns
    o, …, o + w − 1 of the [n, 15] differences, kept as an [n, 1] column. At row p: the squared norm of that piece
    of row p. -/
theorem lane_sqnorm_apply {n w : ℕ} (o : ℕ) (ho : o + w ≤ 15) (X : FVec Ideal ⟨2, ![n, 15]⟩ .f32)
    (hs : (⟨2, ![n, 15]⟩ : Shape).Slices ![0, o] ⟨2, ![n, w]⟩)
    (hr : (⟨2, ![n, w]⟩ : Shape).Reduces [1] ⟨1, ![n]⟩) (hφ : FKind.Formats .f32)
    (hacc : (0x00000000#32 : BitVec (FTy.bits .f32)) = FKind.add.neutral .f32 hφ)
    (hc : (⟨1, ![n]⟩ : Shape).ShapeCasts ⟨2, ![n, 1]⟩) (p : Fin n) :
    shapeCast ⟨2, ![n, 1]⟩ (multiReduction (F := Ideal) .add [1] ⟨1, ![n]⟩
        (extractStridedSlice ⟨2, ![n, w]⟩ ![0, o] (mulf X X) hs) 0x00000000#32 hr hφ hacc) hc (ix2 p (0 : Fin 1))
      = sqnorm (fun k => X (ix2 p k)) o w ho := by
  refine (shapeCast_apply _ hc (ix2 p (0 : Fin 1)) (ix1 p) ?_).trans ?_
  · rw [Shape.rowMajor_val_one, Shape.rowMajor_val_two]
    show p.val = p.val * 1 + 0
    omega
  refine (Cert.LibKeepdims.lane_sum_apply _ hr hφ hacc p).trans (Finset.sum_congr rfl fun j _ => ?_)
  exact slice2_axis1_apply o (mulf X X) hs p j ⟨o + j.val, by have := j.isLt; omega⟩ rfl

end Cert.Features

end
-- ==== Proof.LibDense.lean ====
/-
  A dense layer and the activation z · σ(z), read at an index, for any extents.

  A product of an [n, K] matrix with a [K, M] matrix, contracted over the one shared axis, is at (p, q) the sum
  over k of X(p, k) · W(k, q), whichever way the contraction's index is spelt. With a bias added along the rows
  that is a dense layer at row p. The bias arrives as a [1, M] row broadcast down the rows (beside a matrix unit's
  product into a zero accumulator), or as an [M] vector made a row and then broadcast (beside a plain product).
  The logistic function spelt 1 / (1 + e⁻ᶻ) with its ones as constants is the logistic function.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«155197_j53154515255878_1_alg».proof.Proof.EdgeFilter
import proofs.«155197_j53154515255878_1_alg».proof.Proof.LibKeepdims

noncomputable section

namespace Cert.LibDense

open Idealize.ShloMosaic Idealize.ShloMosaic.ValueIdx Cert.EdgeFilter

/-- The contraction of a plain [n, K] · [K, M] product, its index a one-axis multi-index, as the sum over k : Fin K:
    given where the product's index maps send the output index and the contraction index. -/
theorem plain_dot_sum {n K M : ℕ} (D : DotDims ⟨2, ![n, K]⟩ ⟨2, ![K, M]⟩ ⟨2, ![n, M]⟩)
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (X : (⟨2, ![n, K]⟩ : Shape).Idx → EReal) (W : (⟨2, ![K, M]⟩ : Shape).Idx → EReal) (p : Fin n) (q : Fin M) :
    ∑ k : D.contr.Idx, X (D.lhsIdx (ix2 p q) k) * W (D.rhsIdx (ix2 p q) k) = ∑ k : Fin K, X (ix2 p k) * W (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

/-- A matrix unit's product into the zero accumulator plus a [1, M] bias row broadcast down the rows: the dense
    layer of row p. -/
theorem matmul_bias_apply {n K M : ℕ} {φ₁ φ₂ : FTy} (D : DotDims ⟨2, ![n, K]⟩ ⟨2, ![K, M]⟩ ⟨2, ![n, M]⟩)
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (X : FVec Ideal ⟨2, ![n, K]⟩ φ₁) (W : FVec Ideal ⟨2, ![K, M]⟩ φ₂) (b : FVec Ideal ⟨2, ![1, M]⟩ .f32)
    (h₁ : (⟨2, ![1, M]⟩ : Shape).ShapeCasts ⟨2, ![1, M]⟩) (h₂ : (⟨2, ![1, M]⟩ : Shape).Broadcasts ⟨2, ![n, M]⟩)
    (p : Fin n) (q : Fin M) :
    addf (matmul D none X W (constant ⟨2, ![n, M]⟩ .f32 0x00000000#32))
        (broadcastTo ⟨2, ![n, M]⟩ (shapeCast ⟨2, ![1, M]⟩ b h₁) h₂) (ix2 p q)
      = dense (fun k => X (ix2 p k)) (fun k j => W (ix2 k j)) (fun j => b (ix2 (0 : Fin 1) j)) q := by
  show FloatOps.matmul D none X W (constant ⟨2, ![n, M]⟩ .f32 0x00000000#32) (ix2 p q)
      + broadcastTo ⟨2, ![n, M]⟩ (shapeCast ⟨2, ![1, M]⟩ b h₁) h₂ (ix2 p q) = _
  rw [Ideal.matmul_constant_zero_apply, plain_dot_sum D hr hs l0 l1 r0 r1 X W p q,
    Cert.LibKeepdims.row_broadcast_apply b h₁ h₂ p q]
  rfl

/-- A plain product plus an [M] bias made a [1, M] row and broadcast down the rows: the dense layer of row p. -/
theorem dot_bias_apply {n K M : ℕ} {φ₁ φ₂ : FTy} (D : DotDims ⟨2, ![n, K]⟩ ⟨2, ![K, M]⟩ ⟨2, ![n, M]⟩)
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (X : FVec Ideal ⟨2, ![n, K]⟩ φ₁) (W : FVec Ideal ⟨2, ![K, M]⟩ φ₂) (b : FVec Ideal ⟨1, ![M]⟩ .f32)
    (h₁ : (⟨1, ![M]⟩ : Shape).BroadcastsInDim ⟨2, ![1, M]⟩ ![1])
    (h₂ : (⟨2, ![1, M]⟩ : Shape).BroadcastsInDim ⟨2, ![n, M]⟩ ![0, 1])
    (p : Fin n) (q : Fin M) :
    addf (Host.dotGeneral D none X W)
        (broadcastInDim ⟨2, ![n, M]⟩ ![0, 1] h₂ (broadcastInDim ⟨2, ![1, M]⟩ ![1] h₁ b)) (ix2 p q)
      = dense (fun k => X (ix2 p k)) (fun k j => W (ix2 k j)) (fun j => b (ix1 j)) q := by
  show FloatOps.dotGeneral D none .single X W (ix2 p q)
      + broadcastInDim ⟨2, ![n, M]⟩ ![0, 1] h₂ (broadcastInDim ⟨2, ![1, M]⟩ ![1] h₁ b) (ix2 p q) = _
  rw [Ideal.dotGeneral_apply, plain_dot_sum D hr hs l0 l1 r0 r1 X W p q]
  refine congrArg (_ + ·) ?_
  refine (broadcastInDim_apply _ h₂ _ (ix2 p q) (ix2 (0 : Fin 1) q) fun a => ?_).trans
    (broadcastInDim_apply _ h₁ b (ix2 (0 : Fin 1) q) (ix1 q) fun a => ?_)
  · match a with
    | ⟨0, _⟩ => show 0 = if (1 : ℕ) = 1 then 0 else p.val; rw [if_pos rfl]
    | ⟨1, _⟩ =>
      show q.val = if M = 1 then 0 else q.val
      split
      · have := q.isLt; omega
      · rfl
  · match a with
    | ⟨0, _⟩ =>
      show q.val = if M = 1 then 0 else q.val
      split
      · have := q.isLt; omega
      · rfl

/-- z · σ(z) with σ the vector unit's logistic operation. -/
theorem mul_logistic_apply {s : Shape} (z : FVec Ideal s .f32) (i : s.Idx) :
    mulf z (logistic z) i = silu (z i) := rfl

/-- z · (1 / (1 + e⁻ᶻ)) with the ones splat from the f32 pattern of one: the same activation. -/
theorem mul_inv_one_add_exp_neg_apply {s : Shape} (z : FVec Ideal s .f32)
    (h : (⟨0, ![]⟩ : Shape).BroadcastsInDim s ![]) (i : s.Idx) :
    mulf z (Host.divf (broadcastInDim s ![] h (constant (F := Ideal) ⟨0, ![]⟩ .f32 0x3F800000#32))
      (addf (broadcastInDim s ![] h (constant (F := Ideal) ⟨0, ![]⟩ .f32 0x3F800000#32)) (Host.exp (Host.negf z)))) i
      = silu (z i) := by
  show z i * Ideal.div (Ideal.ofBits .f32 0x3F800000#32) (Ideal.ofBits .f32 0x3F800000#32 + Ideal.exp (-(z i))) = _
  rw [Ideal.ofBits_one_f32]
  rfl

end Cert.LibDense

end
-- ==== Proof.KernelRow.lean ====
/-
  What one grid point's body computes, row by row.

  The body holds 3200 edges: a [3200, 15] block of differences and a [3200, 32] block of radial values, and the two
  filters' weights whole. It squares the differences, sums the squares over the three pieces' lanes, joins the
  sums behind the radial values into the [3200, 35] feature block, and runs each filter as two matrix-unit products
  with a bias row added and z · σ(z) between them. The changes of float format on the way are the identity on the
  extended reals. So row p of each stored block is the edge filter of row p of the two input blocks.
-/
import proofs.«155197_j53154515255878_1_alg».proof.Proof.Gen.KernelIdeal.Skeleton
import proofs.«155197_j53154515255878_1_alg».proof.Proof.Features
import proofs.«155197_j53154515255878_1_alg».proof.Proof.LibDense

noncomputable section

namespace Cert.KernelIdeal.Row

open Cert.KernelIdeal Cert.KernelIdeal.Gen Idealize.ShloMosaic Idealize.ShloMosaic.ValueIdx Cert.EdgeFilter

/-! ## Where the three products' index maps send an output index and a contraction index -/

/-- The [3200, 35] · [35, 128] product: the left operand's row is the output's row. -/
theorem lhsA_0 (i : S3200x128.Idx) (q : dot_S3200x35_S35x128_S3200x128_1_0_0_1_n_n.contr.Idx) :
    (dot_S3200x35_S35x128_S3200x128_1_0_0_1_n_n.lhsIdx i q 0).val = (i 0).val := by
  unfold DotDims.lhsIdx
  rw [dif_neg (show ¬(0 : Fin S3200x35.rank) ∈ dot_S3200x35_S35x128_S3200x128_1_0_0_1_n_n.lhsBatch by decide), dif_pos (show (0 : Fin S3200x35.rank) ∈ dot_S3200x35_S35x128_S3200x128_1_0_0_1_n_n.lhsNonContracting by decide)]
  rfl
/-- Its column is the contraction index. -/
theorem lhsA_1 (i : S3200x128.Idx) (q : dot_S3200x35_S35x128_S3200x128_1_0_0_1_n_n.contr.Idx) :
    (dot_S3200x35_S35x128_S3200x128_1_0_0_1_n_n.lhsIdx i q 1).val = (q ⟨0, by decide⟩).val :=
  dot_S3200x35_S35x128_S3200x128_1_0_0_1_n_n.lhsIdx_val_of_single rfl i q
/-- The right operand's row is the contraction index. -/
theorem rhsA_0 (i : S3200x128.Idx) (q : dot_S3200x35_S35x128_S3200x128_1_0_0_1_n_n.contr.Idx) :
    (dot_S3200x35_S35x128_S3200x128_1_0_0_1_n_n.rhsIdx i q 0).val = (q ⟨0, by decide⟩).val :=
  dot_S3200x35_S35x128_S3200x128_1_0_0_1_n_n.rhsIdx_val_of_single rfl i q
/-- Its column is the output's column. -/
theorem rhsA_1 (i : S3200x128.Idx) (q : dot_S3200x35_S35x128_S3200x128_1_0_0_1_n_n.contr.Idx) :
    (dot_S3200x35_S35x128_S3200x128_1_0_0_1_n_n.rhsIdx i q 1).val = (i 1).val := by
  unfold DotDims.rhsIdx
  rw [dif_neg (show ¬(1 : Fin S35x128.rank) ∈ dot_S3200x35_S35x128_S3200x128_1_0_0_1_n_n.rhsBatch by decide), dif_pos (show (1 : Fin S35x128.rank) ∈ dot_S3200x35_S35x128_S3200x128_1_0_0_1_n_n.rhsNonContracting by decide)]
  rfl

/-- The [3200, 128] · [128, 128] product: the left operand's row is the output's row. -/
theorem lhsB_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
/-- Its column is the contraction index. -/
theorem lhsB_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
/-- The right operand's row is the contraction index. -/
theorem rhsB_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
/-- Its column is the output's column. -/
theorem rhsB_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The [3200, 128] · [128, 3] product: the left operand's row is the output's row. -/
theorem lhsC_0 (i : S3200x3.Idx) (q : dot_S3200x128_S128x3_S3200x3_1_0_0_1_n_n.contr.Idx) :
    (dot_S3200x128_S128x3_S3200x3_1_0_0_1_n_n.lhsIdx i q 0).val = (i 0).val := by
  unfold DotDims.lhsIdx
  rw [dif_neg (show ¬(0 : Fin S3200x128.rank) ∈ dot_S3200x128_S128x3_S3200x3_1_0_0_1_n_n.lhsBatch by decide), dif_pos (show (0 : Fin S3200x128.rank) ∈ dot_S3200x128_S128x3_S3200x3_1_0_0_1_n_n.lhsNonContracting by decide)]
  rfl
/-- Its column is the contraction index. -/
theorem lhsC_1 (i : S3200x3.Idx) (q : dot_S3200x128_S128x3_S3200x3_1_0_0_1_n_n.contr.Idx) :
    (dot_S3200x128_S128x3_S3200x3_1_0_0_1_n_n.lhsIdx i q 1).val = (q ⟨0, by decide⟩).val :=
  dot_S3200x128_S128x3_S3200x3_1_0_0_1_n_n.lhsIdx_val_of_single rfl i q
/-- The right operand's row is the contraction index. -/
theorem rhsC_0 (i : S3200x3.Idx) (q : dot_S3200x128_S128x3_S3200x3_1_0_0_1_n_n.contr.Idx) :
    (dot_S3200x128_S128x3_S3200x3_1_0_0_1_n_n.rhsIdx i q 0).val = (q ⟨0, by decide⟩).val :=
  dot_S3200x128_S128x3_S3200x3_1_0_0_1_n_n.rhsIdx_val_of_single rfl i q
/-- Its column is the output's column. -/
theorem rhsC_1 (i : S3200x3.Idx) (q : dot_S3200x128_S128x3_S3200x3_1_0_0_1_n_n.contr.Idx) :
    (dot_S3200x128_S128x3_S3200x3_1_0_0_1_n_n.rhsIdx i q 1).val = (i 1).val := by
  unfold DotDims.rhsIdx
  rw [dif_neg (show ¬(1 : Fin S128x3.rank) ∈ dot_S3200x128_S128x3_S3200x3_1_0_0_1_n_n.rhsBatch by decide), dif_pos (show (1 : Fin S128x3.rank) ∈ dot_S3200x128_S128x3_S3200x3_1_0_0_1_n_n.rhsNonContracting by decide)]
  rfl

/-! ## The feature block -/

/-- Row p of the feature block is the 35 features of row p of the two input blocks. -/
theorem features_block_apply (v0 : Vec Ideal S3200x15 .f32) (v2 : Vec Ideal S3200x32 .f32) (p : Fin 3200) (k : Fin 35) :
    k0_pay2 (F := Ideal) v0 v2 (ix2 p k) = feat (fun t => v2 (ix2 p t)) (fun t => v0 (ix2 p t)) k := by
  have hv : shapeCast S3200x15 v0 shapeCasts_S3200x15_S3200x15 = v0 := shapeCast_self v0 _
  have e0 := (Cert.Features.lane_sqnorm_apply 0 (by norm_num) (shapeCast S3200x15 v0 shapeCasts_S3200x15_S3200x15)
    slices_S3200x15_o0_0_S3200x3 reduces_S3200x3_S3200 (.inl rfl) rfl shapeCasts_S3200_S3200x1 p).trans
    (congrArg (fun X : FVec Ideal S3200x15 .f32 => sqnorm (fun t => X (ix2 p t)) 0 3 (by norm_num)) hv)
  have e1 := (Cert.Features.lane_sqnorm_apply 3 (by norm_num) (shapeCast S3200x15 v0 shapeCasts_S3200x15_S3200x15)
    slices_S3200x15_o0_3_S3200x5 reduces_S3200x5_S3200 (.inl rfl) rfl shapeCasts_S3200_S3200x1 p).trans
    (congrArg (fun X : FVec Ideal S3200x15 .f32 => sqnorm (fun t => X (ix2 p t)) 3 5 (by norm_num)) hv)
  have e2 := (Cert.Features.lane_sqnorm_apply 8 (by norm_num) (shapeCast S3200x15 v0 shapeCasts_S3200x15_S3200x15)
    slices_S3200x15_o0_8_S3200x7 reduces_S3200x7_S3200 (.inl rfl) rfl shapeCasts_S3200_S3200x1 p).trans
    (congrArg (fun X : FVec Ideal S3200x15 .f32 => sqnorm (fun t => X (ix2 p t)) 8 7 (by norm_num)) hv)
  unfold k0_pay2
  exact Cert.Features.features_apply v2 _ _ _ concatenates_S3200x1_S3200x1_S3200x1_S3200x3_d1
    concatenates_S3200x32_S3200x3_S3200x35_d1 (fun t => v0 (ix2 p t)) p e0 e1 e2 k

/-! ## A filter on a feature block -/

/-- Two matrix-unit products with bias rows and z · σ(z) between them, on any [3200, 35] feature block `x`, into
    128 outputs: at (p, q) the two dense layers of row p of `x`. -/
theorem two_layers_128_apply (x : FVec Ideal S3200x35 .bf16) (w1 : FVec Ideal S35x128 .bf16) (b1 : Vec Ideal S1x128 .f32)
    (w2 : FVec Ideal S128x128 .bf16) (b2 : Vec Ideal S1x128 .f32) (p : Fin 3200) (q : Fin 128) :
    addf (matmul dot_S3200x128_S128x128_S3200x128_1_0_0_1_n_n none
        (truncf .bf16 (mulf (addf (matmul dot_S3200x35_S35x128_S3200x128_1_0_0_1_n_n none x w1 (constant S3200x128 .f32 0x00000000#32))
              (broadcastTo S3200x128 (shapeCast S1x128 b1 shapeCasts_S1x128_S1x128) broadcasts_S1x128_S3200x128))
            (logistic (addf (matmul dot_S3200x35_S35x128_S3200x128_1_0_0_1_n_n none x w1 (constant S3200x128 .f32 0x00000000#32))
              (broadcastTo S3200x128 (shapeCast S1x128 b1 shapeCasts_S1x128_S1x128) broadcasts_S1x128_S3200x128)))) bitsLt_bf16_f32)
        w2 (constant S3200x128 .f32 0x00000000#32))
      (broadcastTo S3200x128 (shapeCast S1x128 b2 shapeCasts_S1x128_S1x128) broadcasts_S1x128_S3200x128) (ix2 p q)
      = dense (fun j => silu (dense (fun k => x (ix2 p k)) (fun k j => w1 (ix2 k j)) (fun j => b1 (ix2 (0 : Fin 1) j)) j))
          (fun k j => w2 (ix2 k j)) (fun j => b2 (ix2 (0 : Fin 1) j)) q := by
  refine (Cert.LibDense.matmul_bias_apply dot_S3200x128_S128x128_S3200x128_1_0_0_1_n_n rfl rfl lhsB_0 lhsB_1 rhsB_0 rhsB_1 _ w2 b2
    shapeCasts_S1x128_S1x128 broadcasts_S1x128_S3200x128 p q).trans ?_
  refine congrArg (fun y : Fin 128 → EReal => dense y (fun k j => w2 (ix2 k j)) (fun j => b2 (ix2 (0 : Fin 1) j)) q) (funext fun j => ?_)
  refine (Cert.LibDense.mul_logistic_apply _ (ix2 p j)).trans (congrArg silu ?_)
  exact Cert.LibDense.matmul_bias_apply dot_S3200x35_S35x128_S3200x128_1_0_0_1_n_n rfl rfl lhsA_0 lhsA_1 rhsA_0 rhsA_1 x w1 b1
    shapeCasts_S1x128_S1x128 broadcasts_S1x128_S3200x128 p j

/-- The same into 3 outputs. -/
theorem two_layers_3_apply (x : FVec Ideal S3200x35 .bf16) (w1 : FVec Ideal S35x128 .bf16) (b1 : Vec Ideal S1x128 .f32)
    (w2 : FVec Ideal S128x3 .bf16) (b2 : Vec Ideal S1x3 .f32) (p : Fin 3200) (q : Fin 3) :
    addf (matmul dot_S3200x128_S128x3_S3200x3_1_0_0_1_n_n none
        (truncf .bf16 (mulf (addf (matmul dot_S3200x35_S35x128_S3200x128_1_0_0_1_n_n none x w1 (constant S3200x128 .f32 0x00000000#32))
              (broadcastTo S3200x128 (shapeCast S1x128 b1 shapeCasts_S1x128_S1x128) broadcasts_S1x128_S3200x128))
            (logistic (addf (matmul dot_S3200x35_S35x128_S3200x128_1_0_0_1_n_n none x w1 (constant S3200x128 .f32 0x00000000#32))
              (broadcastTo S3200x128 (shapeCast S1x128 b1 shapeCasts_S1x128_S1x128) broadcasts_S1x128_S3200x128)))) bitsLt_bf16_f32)
        w2 (constant S3200x3 .f32 0x00000000#32))
      (broadcastTo S3200x3 (shapeCast S1x3 b2 shapeCasts_S1x3_S1x3) broadcasts_S1x3_S3200x3) (ix2 p q)
      = dense (fun j => silu (dense (fun k => x (ix2 p k)) (fun k j => w1 (ix2 k j)) (fun j => b1 (ix2 (0 : Fin 1) j)) j))
          (fun k j => w2 (ix2 k j)) (fun j => b2 (ix2 (0 : Fin 1) j)) q := by
  refine (Cert.LibDense.matmul_bias_apply dot_S3200x128_S128x3_S3200x3_1_0_0_1_n_n rfl rfl lhsC_0 lhsC_1 rhsC_0 rhsC_1 _ w2 b2
    shapeCasts_S1x3_S1x3 broadcasts_S1x3_S3200x3 p q).trans ?_
  refine congrArg (fun y : Fin 128 → EReal => dense y (fun k j => w2 (ix2 k j)) (fun j => b2 (ix2 (0 : Fin 1) j)) q) (funext fun j => ?_)
  refine (Cert.LibDense.mul_logistic_apply _ (ix2 p j)).trans (congrArg silu ?_)
  exact Cert.LibDense.matmul_bias_apply dot_S3200x35_S35x128_S3200x128_1_0_0_1_n_n rfl rfl lhsA_0 lhsA_1 rhsA_0 rhsA_1 x w1 b1
    shapeCasts_S1x128_S1x128 broadcasts_S1x128_S3200x128 p j

/-! ## The two stored blocks -/

/-- Row p of the first stored block: the 128-output filter of row p of the input blocks. -/
theorem inv_block_apply (v0 : Vec Ideal S3200x15 .f32) (v2 : Vec Ideal S3200x32 .f32) (v16 : Vec Ideal S35x128 .bf16)
    (v19 : Vec Ideal S1x128 .f32) (v26 : Vec Ideal S128x128 .bf16) (v29 : Vec Ideal S1x128 .f32) (p : Fin 3200) (q : Fin 128) :
    k0_pay3 (F := Ideal) v0 v2 v16 v19 v26 v29 (ix2 p q)
      = filter (fun t => v2 (ix2 p t)) (fun t => v0 (ix2 p t)) (fun k j => v16 (ix2 k j)) (fun j => v19 (ix2 (0 : Fin 1) j))
          (fun k j => v26 (ix2 k j)) (fun j => v29 (ix2 (0 : Fin 1) j)) q := by
  unfold k0_pay3
  refine (two_layers_128_apply (k0_pay2 v0 v2) (shapeCast S35x128 v16 shapeCasts_S35x128_S35x128) v19
    (shapeCast S128x128 v26 shapeCasts_S128x128_S128x128) v29 p q).trans ?_
  rw [shapeCast_self v16, shapeCast_self v26]
  unfold filter
  exact congrArg (fun x : Fin 35 → EReal => dense (fun j => silu (dense x (fun k j => v16 (ix2 k j)) (fun j => v19 (ix2 (0 : Fin 1) j)) j))
    (fun k j => v26 (ix2 k j)) (fun j => v29 (ix2 (0 : Fin 1) j)) q) (funext fun k => features_block_apply v0 v2 p k)

/-- Row p of the second stored block: the 3-output filter of row p of the input blocks. -/
theorem ev_block_apply (v0 : Vec Ideal S3200x15 .f32) (v2 : Vec Ideal S3200x32 .f32) (v34 : Vec Ideal S35x128 .bf16)
    (v37 : Vec Ideal S1x128 .f32) (v44 : Vec Ideal S128x3 .bf16) (v47 : Vec Ideal S1x3 .f32) (p : Fin 3200) (q : Fin 3) :
    k0_pay1 (F := Ideal) (k0_pay2 v0 v2) (k0_pay4 v34) (constant S3200x128 .f32 0x00000000#32) v37 v44 v47 (ix2 p q)
      = filter (fun t => v2 (ix2 p t)) (fun t => v0 (ix2 p t)) (fun k j => v34 (ix2 k j)) (fun j => v37 (ix2 (0 : Fin 1) j))
          (fun k j => v44 (ix2 k j)) (fun j => v47 (ix2 (0 : Fin 1) j)) q := by
  unfold k0_pay1 k0_pay4
  refine (two_layers_3_apply (k0_pay2 v0 v2) (shapeCast S35x128 v34 shapeCasts_S35x128_S35x128) v37
    (shapeCast S128x3 v44 shapeCasts_S128x3_S128x3) v47 p q).trans ?_
  rw [shapeCast_self v34, shapeCast_self v44]
  unfold filter
  exact congrArg (fun x : Fin 35 → EReal => dense (fun j => silu (dense x (fun k j => v34 (ix2 k j)) (fun j => v37 (ix2 (0 : Fin 1) j)) j))
    (fun k j => v44 (ix2 k j)) (fun j => v47 (ix2 (0 : Fin 1) j)) q) (funext fun k => features_block_apply v0 v2 p k)

end Cert.KernelIdeal.Row

end
-- ==== Proof.KernelArray.lean ====
/-
  From the grid's blocks to the two result arrays.

  Before the call @main gathers the rows of the node table named by the two index vectors and subtracts them (the
  differences), casts the four weight matrices to the narrower float format (the identity on the extended reals)
  and makes each bias vector a [1, M] row. The call's grid has 250 points; point t holds rows 3200 t, …,
  3200 t + 3199 of the differences and of the radial values and the weights whole, and writes back rows
  3200 t, …, 3200 t + 3199 of each result. Row p of what it writes is the edge filter of row 3200 t + p, so each
  written block is a block of one array, the filter of every row; the 250 blocks cover the 800000 rows.
-/
import proofs.«155197_j53154515255878_1_alg».proof.Proof.Gen.KernelIdeal.Value
import proofs.«155197_j53154515255878_1_alg».proof.Proof.KernelRow
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Value Idealize.ShloMosaic.ValueIdx Cert.EdgeFilter

variable (m : (ℓ : Loc nD τ sig) → Buf (Elt Ideal) ℓ) (ρ : Dev nD → PrngReg)

theorem hz : (![0, 0] : Fin 2 → Nat) = fun _ => 0 := funext fun a => by fin_cases a <;> rfl

/-! ## What @main computes before the call -/

/-- The rows of the node table `ev` named by `s`, less the rows named by `r`: a negative index counts from the
    table's end, as the gather's index arithmetic spells it. -/
def evDiff (ev : FVec Ideal S50000x15 .f32) (s r : IVec S800000 32) : FVec Ideal S800000x15 .f32 :=
  subf
    (Host.gather gather_S50000x15_S800000x1_S800000x15_1_0_n_n_0_1_115 ev
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))
    (Host.gather gather_S50000x15_S800000x1_S800000x15_1_0_n_n_0_1_115 ev
      (broadcastInDim S800000x1 ![0] bcast_S800000_S800000x1_0
        (select (cmpi .slt r (broadcastInDim S800000 ![] bcast_S_S800000 (constantI S_ 32 0#32)))
          (addi r (broadcastInDim S800000 ![] bcast_S_S800000 (constantI S_ 32 50000#32))) r)))

set_option maxHeartbeats 2000000 in
/-- The call's first operand is the differences. -/
theorem V_diff (c : Dev nD) : (V m c main_v14 : S800000x15.Idx → EReal)
    = evDiff (m ((c : Thread nD τ).loc main_arg1)) (m ((c : Thread nD τ).loc main_arg2)) (m ((c : Thread nD τ).loc main_arg3)) := by
  dsimp only [Gen.V, Gen.hostOps0]; after_results_simp <;> rfl

/-- The cast weight matrices are the weight matrices. -/
theorem V_w1_inv (c : Dev nD) : (V m c main_v19 : S35x128.Idx → EReal) = (m ((c : Thread nD τ).loc main_arg7)) := by
  dsimp only [Gen.V, Gen.hostOps0]; after_results; rfl
theorem V_w2_inv (c : Dev nD) : (V m c main_v20 : S128x128.Idx → EReal) = (m ((c : Thread nD τ).loc main_arg9)) := by
  dsimp only [Gen.V, Gen.hostOps0]; after_results; rfl
theorem V_w1_ev (c : Dev nD) : (V m c main_v21 : S35x128.Idx → EReal) = (m ((c : Thread nD τ).loc main_arg11)) := by
  dsimp only [Gen.V, Gen.hostOps0]; after_results; rfl
theorem V_w2_ev (c : Dev nD) : (V m c main_v22 : S128x3.Idx → EReal) = (m ((c : Thread nD τ).loc main_arg13)) := by
  dsimp only [Gen.V, Gen.hostOps0]; after_results; rfl

/-- Each bias row is its bias vector cast to [1, M]. -/
theorem V_b1_inv (c : Dev nD) : (V m c main_v15 : S1x128.Idx → EReal)
    = shapeCast S1x128 (m ((c : Thread nD τ).loc main_arg8)) shapeCasts_S128_S1x128 := by
  dsimp only [Gen.V, Gen.hostOps0]; after_results; rfl
theorem V_b2_inv (c : Dev nD) : (V m c main_v16 : S1x128.Idx → EReal)
    = shapeCast S1x128 (m ((c : Thread nD τ).loc main_arg10)) shapeCasts_S128_S1x128 := by
  dsimp only [Gen.V, Gen.hostOps0]; after_results; rfl
theorem V_b1_ev (c : Dev nD) : (V m c main_v17 : S1x128.Idx → EReal)
    = shapeCast S1x128 (m ((c : Thread nD τ).loc main_arg12)) shapeCasts_S128_S1x128 := by
  dsimp only [Gen.V, Gen.hostOps0]; after_results; rfl
theorem V_b2_ev (c : Dev nD) : (V m c main_v18 : S1x3.Idx → EReal)
    = shapeCast S1x3 (m ((c : Thread nD τ).loc main_arg14)) shapeCasts_S3_S1x3 := by
  dsimp only [Gen.V, Gen.hostOps0]; after_results; rfl

/-! ## The windows' index maps over the 250 points -/

/-- The two streamed operands and the two results move one block of rows per point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The eight weight operands stay on their one block. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The input blocks as rows of the arrays -/

/-- Row p of point t's block of differences is row 3200 t + p of the differences. -/
theorem diff_block_apply (c : Dev nD) (t : Fin cfg0.N) (p : Fin 3200) (k : Fin 15) (row : Fin 800000)
    (hrow : row.val = 3200 * t.val + p.val) :
    (iblk m c 0 t : Vec Ideal S3200x15 .f32) (ix2 p k) = (V m c main_v14 : S800000x15.Idx → EReal) (ix2 row k) := by
  obtain ⟨e0, e1, -⟩ := idx_rows t
  unfold iblk
  rw [View.read_apply]
  show V m c main_v14 _ = V m c main_v14 _
  congr 1
  funext a
  apply Fin.ext
  match a with
  | ⟨0, _⟩ => show win0_0.index t 0 * 3200 + 1 * p.val = row.val; rw [e0, hrow]; omega
  | ⟨1, _⟩ => show win0_0.index t 1 * 15 + 1 * k.val = k.val; rw [e1]; omega

/-- Row p of point t's block of radial values is row 3200 t + p of the radial values. -/
theorem len_block_apply (c : Dev nD) (t : Fin cfg0.N) (p : Fin 3200) (k : Fin 32) (row : Fin 800000)
    (hrow : row.val = 3200 * t.val + p.val) :
    (iblk m c 1 t : Vec Ideal S3200x32 .f32) (ix2 p k) = (V m c main_arg5 : S800000x32.Idx → EReal) (ix2 row k) := by
  obtain ⟨-, -, e0, e1, -⟩ := idx_rows t
  unfold iblk
  rw [View.read_apply]
  show V m c main_arg5 _ = V m c main_arg5 _
  congr 1
  funext a
  apply Fin.ext
  match a with
  | ⟨0, _⟩ => show win0_1.index t 0 * 3200 + 1 * p.val = row.val; rw [e0, hrow]; omega
  | ⟨1, _⟩ => show win0_1.index t 1 * 32 + 1 * k.val = k.val; rw [e1]; omega

/-- Each weight operand's block is the operand whole, at every point. -/
theorem w1_inv_block (c : Dev nD) (t : Fin cfg0.N) :
    (iblk m c 2 t : Vec Ideal S35x128 .bf16) = (V m c main_v19 : S35x128.Idx → EReal) := by
  obtain ⟨e0, e1, -⟩ := idx_whole t
  funext y
  unfold iblk
  rw [View.read_apply]
  show V m c main_v19 _ = V m c main_v19 y
  congr 1
  funext a
  apply Fin.ext
  match a with
  | ⟨0, _⟩ => show win0_2.index t 0 * 35 + 1 * (y 0).val = (y 0).val; rw [e0]; omega
  | ⟨1, _⟩ => show win0_2.index t 1 * 128 + 1 * (y 1).val = (y 1).val; rw [e1]; omega
theorem b1_inv_block (c : Dev nD) (t : Fin cfg0.N) :
    (iblk m c 3 t : Vec Ideal S1x128 .f32) = (V m c main_v15 : S1x128.Idx → EReal) := by
  obtain ⟨-, -, e0, e1, -⟩ := idx_whole t
  funext y
  unfold iblk
  rw [View.read_apply]
  show V m c main_v15 _ = V m c main_v15 y
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega
theorem w2_inv_block (c : Dev nD) (t : Fin cfg0.N) :
    (iblk m c 4 t : Vec Ideal S128x128 .bf16) = (V m c main_v20 : S128x128.Idx → EReal) := by
  obtain ⟨-, -, -, -, e0, e1, -⟩ := idx_whole t
  funext y
  unfold iblk
  rw [View.read_apply]
  show V m c main_v20 _ = V m c main_v20 y
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega
theorem b2_inv_block (c : Dev nD) (t : Fin cfg0.N) :
    (iblk m c 5 t : Vec Ideal S1x128 .f32) = (V m c main_v16 : S1x128.Idx → EReal) := by
  obtain ⟨-, -, -, -, -, -, e0, e1, -⟩ := idx_whole t
  funext y
  unfold iblk
  rw [View.read_apply]
  show V m c main_v16 _ = V m c main_v16 y
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega
theorem w1_ev_block (c : Dev nD) (t : Fin cfg0.N) :
    (iblk m c 6 t : Vec Ideal S35x128 .bf16) = (V m c main_v21 : S35x128.Idx → EReal) := by
  obtain ⟨-, -, -, -, -, -, -, -, e0, e1, -⟩ := idx_whole t
  funext y
  unfold iblk
  rw [View.read_apply]
  show V m c main_v21 _ = V m c main_v21 y
  congr 1
  funext a
  apply Fin.ext
  match a with
  | ⟨0, _⟩ => show win0_6.index t 0 * 35 + 1 * (y 0).val = (y 0).val; rw [e0]; omega
  | ⟨1, _⟩ => show win0_6.index t 1 * 128 + 1 * (y 1).val = (y 1).val; rw [e1]; omega
theorem b1_ev_block (c : Dev nD) (t : Fin cfg0.N) :
    (iblk m c 7 t : Vec Ideal S1x128 .f32) = (V m c main_v17 : S1x128.Idx → EReal) := by
  obtain ⟨-, -, -, -, -, -, -, -, -, -, e0, e1, -⟩ := idx_whole t
  funext y
  unfold iblk
  rw [View.read_apply]
  show V m c main_v17 _ = V m c main_v17 y
  congr 1
  funext a
  apply Fin.ext
  match a with
  | ⟨0, _⟩ => show win0_7.index t 0 * 1 + 1 * (y 0).val = (y 0).val; rw [e0]; omega
  | ⟨1, _⟩ => show win0_7.index t 1 * 128 + 1 * (y 1).val = (y 1).val; rw [e1]; omega
theorem w2_ev_block (c : Dev nD) (t : Fin cfg0.N) :
    (iblk m c 8 t : Vec Ideal S128x3 .bf16) = (V m c main_v22 : S128x3.Idx → EReal) := by
  obtain ⟨-, -, -, -, -, -, -, -, -, -, -, -, e0, e1, -⟩ := idx_whole t
  funext y
  unfold iblk
  rw [View.read_apply]
  show V m c main_v22 _ = V m c main_v22 y
  congr 1
  funext a
  apply Fin.ext
  match a with
  | ⟨0, _⟩ => show win0_8.index t 0 * 128 + 1 * (y 0).val = (y 0).val; rw [e0]; omega
  | ⟨1, _⟩ => show win0_8.index t 1 * 3 + 1 * (y 1).val = (y 1).val; rw [e1]; omega
theorem b2_ev_block (c : Dev nD) (t : Fin cfg0.N) :
    (iblk m c 9 t : Vec Ideal S1x3 .f32) = (V m c main_v18 : S1x3.Idx → EReal) := by
  obtain ⟨-, -, -, -, -, -, -, -, -, -, -, -, -, -, e0, e1⟩ := idx_whole t
  funext y
  unfold iblk
  rw [View.read_apply]
  show V m c main_v18 _ = V m c main_v18 y
  congr 1
  funext a
  apply Fin.ext
  match a with
  | ⟨0, _⟩ => show win0_9.index t 0 * 1 + 1 * (y 0).val = (y 0).val; rw [e0]; omega
  | ⟨1, _⟩ => show win0_9.index t 1 * 3 + 1 * (y 1).val = (y 1).val; rw [e1]; omega

/-! ## The two result arrays -/

/-- The first result: the 128-output filter of every edge. -/
abbrev invRows (c : Dev nD) : S800000x128.Idx → EReal :=
  filterRows (evDiff (m ((c : Thread nD τ).loc main_arg1)) (m ((c : Thread nD τ).loc main_arg2)) (m ((c : Thread nD τ).loc main_arg3))) (m ((c : Thread nD τ).loc main_arg5)) (m ((c : Thread nD τ).loc main_arg7)) (m ((c : Thread nD τ).loc main_arg8)) (m ((c : Thread nD τ).loc main_arg9)) (m ((c : Thread nD τ).loc main_arg10))

/-- The second result: the 3-output filter of every edge. -/
abbrev evRows (c : Dev nD) : S800000x3.Idx → EReal :=
  filterRows (evDiff (m ((c : Thread nD τ).loc main_arg1)) (m ((c : Thread nD τ).loc main_arg2)) (m ((c : Thread nD τ).loc main_arg3))) (m ((c : Thread nD τ).loc main_arg5)) (m ((c : Thread nD τ).loc main_arg11)) (m ((c : Thread nD τ).loc main_arg12)) (m ((c : Thread nD τ).loc main_arg13)) (m ((c : Thread nD τ).loc main_arg14))

/-- Row p of point t's blocks, as the filter's first two data: row 3200 t + p of the radial values and of the
    differences. -/
theorem len_row (c : Dev nD) (t : Fin cfg0.N) (p : Fin 3200) (row : Fin 800000) (hrow : row.val = 3200 * t.val + p.val) :
    (fun k : Fin 32 => (iblk m c 1 t : Vec Ideal S3200x32 .f32) (ix2 p k)) = fun k => (m ((c : Thread nD τ).loc main_arg5)) (ix2 row k) :=
  funext fun k => (len_block_apply m c t p k row hrow).trans (congrFun (V_main_arg5 m c) _)
theorem diff_row (c : Dev nD) (t : Fin cfg0.N) (p : Fin 3200) (row : Fin 800000) (hrow : row.val = 3200 * t.val + p.val) :
    (fun k : Fin 15 => (iblk m c 0 t : Vec Ideal S3200x15 .f32) (ix2 p k))
      = fun k => evDiff (m ((c : Thread nD τ).loc main_arg1)) (m ((c : Thread nD τ).loc main_arg2)) (m ((c : Thread nD τ).loc main_arg3)) (ix2 row k) :=
  funext fun k => (diff_block_apply m c t p k row hrow).trans (congrFun (V_diff m c) _)

/-- WHAT POINT t WRITES BACK to the first result is block t of `invRows`. -/
theorem flushed10_eq (c : Dev nD) (t : Fin cfg0.N) :
    (dats m 0 c).flushed 10 t = ((cfg0.win 10).blk t).view.read (Elt Ideal) (invRows m c) := by
  rw [Value.flushed10]
  unfold out0_10
  rw [View.canon_unit_zero hz]
  simp only [View.ld_unit_zero (S := S3200x15) hz, View.ld_unit_zero (S := S3200x32) hz, View.ld_unit_zero (S := S35x128) hz,
    View.ld_unit_zero (S := S1x128) hz, View.ld_unit_zero (S := S128x128) hz]
  funext j
  obtain ⟨p, q, rfl⟩ : ∃ (p : Fin 3200) (q : Fin 128), j = ix2 p q := ⟨j 0, j 1, eq_ix2 j⟩
  have hp : p.val < 3200 := p.isLt
  have ht : t.val < 250 := lt_of_lt_of_eq t.isLt N_0
  obtain ⟨-, -, -, -, e0, e1, -⟩ := idx_rows t
  have hemb : ((cfg0.win 10).blk t).view.emb (ix2 p q) = ix2 (⟨3200 * t.val + p.val, by omega⟩ : Fin 800000) q := by
    funext a
    apply Fin.ext
    match a with
    | ⟨0, _⟩ => show win0_10.index t 0 * 3200 + 1 * p.val = 3200 * t.val + p.val; rw [e0]; omega
    | ⟨1, _⟩ => show win0_10.index t 1 * 128 + 1 * q.val = q.val; rw [e1]; omega
  show k0_pay3 (iblk m c 0 t) (iblk m c 1 t) (iblk m c 2 t) (iblk m c 3 t) (iblk m c 4 t) (iblk m c 5 t) (ix2 p q)
    = invRows m c (((cfg0.win 10).blk t).view.emb (ix2 p q))
  rw [hemb]
  refine (Row.inv_block_apply (iblk m c 0 t) (iblk m c 1 t) (iblk m c 2 t) (iblk m c 3 t) (iblk m c 4 t) (iblk m c 5 t) p q).trans ?_
  refine filter_congr (len_row m c t p _ rfl) (diff_row m c t p _ rfl) ?_ ?_ ?_ ?_ q
  · rw [w1_inv_block, V_w1_inv]
  · funext j; rw [b1_inv_block, V_b1_inv]; exact shapeCast_a_1a_apply _ _ 0 j
  · rw [w2_inv_block, V_w2_inv]
  · funext j; rw [b2_inv_block, V_b2_inv]; exact shapeCast_a_1a_apply _ _ 0 j

/-- WHAT POINT t WRITES BACK to the second result is block t of `evRows`. -/
theorem flushed11_eq (c : Dev nD) (t : Fin cfg0.N) :
    (dats m 0 c).flushed 11 t = ((cfg0.win 11).blk t).view.read (Elt Ideal) (evRows m c) := by
  rw [Value.flushed11]
  unfold out0_11
  rw [View.canon_unit_zero hz]
  simp only [View.ld_unit_zero (S := S3200x15) hz, View.ld_unit_zero (S := S3200x32) hz, View.ld_unit_zero (S := S35x128) hz,
    View.ld_unit_zero (S := S1x128) hz, View.ld_unit_zero (S := S128x3) hz, View.ld_unit_zero (S := S1x3) hz]
  funext j
  obtain ⟨p, q, rfl⟩ : ∃ (p : Fin 3200) (q : Fin 3), j = ix2 p q := ⟨j 0, j 1, eq_ix2 j⟩
  have hp : p.val < 3200 := p.isLt
  have ht : t.val < 250 := lt_of_lt_of_eq t.isLt N_0
  obtain ⟨-, -, -, -, -, -, e0, e1⟩ := idx_rows t
  have hemb : ((cfg0.win 11).blk t).view.emb (ix2 p q) = ix2 (⟨3200 * t.val + p.val, by omega⟩ : Fin 800000) q := by
    funext a
    apply Fin.ext
    match a with
    | ⟨0, _⟩ => show win0_11.index t 0 * 3200 + 1 * p.val = 3200 * t.val + p.val; rw [e0]; omega
    | ⟨1, _⟩ => show win0_11.index t 1 * 3 + 1 * q.val = q.val; rw [e1]; omega
  show k0_pay1 (k0_pay2 (iblk m c 0 t) (iblk m c 1 t)) (k0_pay4 (iblk m c 6 t)) (constant S3200x128 .f32 0x00000000#32)
      (iblk m c 7 t) (iblk m c 8 t) (iblk m c 9 t) (ix2 p q)
    = evRows m c (((cfg0.win 11).blk t).view.emb (ix2 p q))
  rw [hemb]
  refine (Row.ev_block_apply (iblk m c 0 t) (iblk m c 1 t) (iblk m c 6 t) (iblk m c 7 t) (iblk m c 8 t) (iblk m c 9 t) p q).trans ?_
  refine filter_congr (len_row m c t p _ rfl) (diff_row m c t p _ rfl) ?_ ?_ ?_ ?_ q
  · rw [w1_ev_block, V_w1_ev]
  · funext j; rw [b1_ev_block, V_b1_ev]; exact shapeCast_a_1a_apply _ _ 0 j
  · rw [w2_ev_block, V_w2_ev]
  · funext j; rw [b2_ev_block, V_b2_ev]; exact shapeCast_a_1a_apply _ _ 0 j

/-! ## The blocks cover the arrays -/

/-- An index of the first result is in point t's block iff its row is among rows 3200 t, …, 3200 t + 3199. -/
theorem mem_blk10 (t : Fin cfg0.N) (i : S800000x128.Idx) :
    i ∈ ((cfg0.win 10).blk t).view.set ↔ ∀ a : Fin 2, win0_10.index t a * S3200x128.size a ≤ (i a).val ∧ (i a).val < win0_10.index t a * S3200x128.size a + S3200x128.size a := by
  show i ∈ ((View.whole main_v23_0).slice (win0_10.rect t)).set ↔ _
  rw [View.set_slice_whole, Rect.mem_set_unit]
  exact Iff.rfl

theorem mem_blk11 (t : Fin cfg0.N) (i : S800000x3.Idx) :
    i ∈ ((cfg0.win 11).blk t).view.set ↔ ∀ a : Fin 2, win0_11.index t a * S3200x3.size a ≤ (i a).val ∧ (i a).val < win0_11.index t a * S3200x3.size a + S3200x3.size a := by
  show i ∈ ((View.whole main_v23_1).slice (win0_11.rect t)).set ↔ _
  rw [View.set_slice_whole, Rect.mem_set_unit]
  exact Iff.rfl

/-- Row r of the first result is in the block of point r / 3200. -/
theorem cover10 (i : S800000x128.Idx) : ∃ t : Fin cfg0.N, (cfg0.win 10).flush t = true ∧ i ∈ ((cfg0.win 10).blk t).view.set := by
  have hi0 : (i 0).val < 800000 := (i 0).isLt
  have hi1 : (i 1).val < 128 := (i 1).isLt
  have hN : cfg0.N = 250 := N_0
  refine ⟨⟨(i 0).val / 3200, by rw [hN]; omega⟩, flush0_10 _, ?_⟩
  obtain ⟨-, -, -, -, e0, e1, -⟩ := idx_rows ⟨(i 0).val / 3200, by rw [hN]; omega⟩
  rw [mem_blk10]
  intro a
  match a with
  | ⟨0, _⟩ =>
    show win0_10.index ⟨(i 0).val / 3200, _⟩ 0 * 3200 ≤ (i 0).val ∧ (i 0).val < win0_10.index ⟨(i 0).val / 3200, _⟩ 0 * 3200 + 3200
    rw [e0]
    show (i 0).val / 3200 * 3200 ≤ (i 0).val ∧ (i 0).val < (i 0).val / 3200 * 3200 + 3200
    omega
  | ⟨1, _⟩ =>
    show win0_10.index ⟨(i 0).val / 3200, _⟩ 1 * 128 ≤ (i 1).val ∧ (i 1).val < win0_10.index ⟨(i 0).val / 3200, _⟩ 1 * 128 + 128
    rw [e1]
    omega

/-- Row r of the second result is in the block of point r / 3200. -/
theorem cover11 (i : S800000x3.Idx) : ∃ t : Fin cfg0.N, (cfg0.win 11).flush t = true ∧ i ∈ ((cfg0.win 11).blk t).view.set := by
  have hi0 : (i 0).val < 800000 := (i 0).isLt
  have hi1 : (i 1).val < 3 := (i 1).isLt
  have hN : cfg0.N = 250 := N_0
  refine ⟨⟨(i 0).val / 3200, by rw [hN]; omega⟩, flush0_11 _, ?_⟩
  obtain ⟨-, -, -, -, -, -, e0, e1⟩ := idx_rows ⟨(i 0).val / 3200, by rw [hN]; omega⟩
  rw [mem_blk11]
  intro a
  match a with
  | ⟨0, _⟩ =>
    show win0_11.index ⟨(i 0).val / 3200, _⟩ 0 * 3200 ≤ (i 0).val ∧ (i 0).val < win0_11.index ⟨(i 0).val / 3200, _⟩ 0 * 3200 + 3200
    rw [e0]
    show (i 0).val / 3200 * 3200 ≤ (i 0).val ∧ (i 0).val < (i 0).val / 3200 * 3200 + 3200
    omega
  | ⟨1, _⟩ =>
    show win0_11.index ⟨(i 0).val / 3200, _⟩ 1 * 3 ≤ (i 1).val ∧ (i 1).val < win0_11.index ⟨(i 0).val / 3200, _⟩ 1 * 3 + 3
    rw [e1]
    omega

/-! ## The arrays after the run, and the run -/

theorem final10 (c : Dev nD) : (dats m 0 c).arrAt 10 cfg0.N = invRows m c :=
  (dats m 0 c).arrAt_eq_of_cover 10 (invRows m c) (fun t _ => flushed10_eq m c t) cover10

theorem final11 (c : Dev nD) : (dats m 0 c).arrAt 11 cfg0.N = evRows m c :=
  (dats m 0 c).arrAt_eq_of_cover 11 (evRows m c) (fun t _ => flushed11_eq m c t) cover11

/-- Every weakly fair execution ends with the two results at the filters of every edge, the arguments unchanged. -/
theorem run : θ_run defs (onTc (τ := τ) (main (F := Ideal))) ⟨m, fun _ => 0, ρ⟩ fun r => ∀ c : Dev nD,
      r.2.mem ((c : Thread nD τ).loc main_v23_0) = invRows m c
      ∧ r.2.mem ((c : Thread nD τ).loc main_v23_1) = evRows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final10 m c), (h c).2.1.trans (final11 m c), (h c).2.2⟩)
    (Value.run_blocks m ρ)

end Cert.KernelIdeal.Rows

end
-- ==== Proof.LibHostConcat.lean ====
/-
  A concatenation with its pieces as plain arguments.

  `concatenate` takes its pieces as a list of shape–array pairs, and the fact that the shapes fit is stated over that
  list. Stated with two or three pieces as separate arguments, and the fact over the shapes alone, it is the same
  function, and a piece can then be rewritten like any other argument.
-/
import Idealize.ShloMosaic.PureOps.ShapeOps

noncomputable section

namespace Cert.LibHostConcat

open Idealize.ShloMosaic

variable {α : Type}

/-- Two pieces joined along axis `a`. -/
def cat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- Three pieces joined along axis `a`. -/
def cat3 (t : Shape) (a : Fin t.rank) (s₁ s₂ s₃ : Shape) (x₁ : s₁.Idx → α) (x₂ : s₂.Idx → α) (x₃ : s₃.Idx → α)
    (h : Shape.Concatenates [s₁, s₂, s₃] t a) : t.Idx → α :=
  concatenate t a [⟨s₁, x₁⟩, ⟨s₂, x₂⟩, ⟨s₃, x₃⟩] h

theorem concatenate_two (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

theorem concatenate_three (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = cat3 t a s₁ s₂ s₃ x₁ x₂ x₃ h := rfl

end Cert.LibHostConcat

end
-- ==== Proof.RefRow.lean ====
/-
  What the reference computes, row by row.

  The reference works on all 800000 edges at once. From the [800000, 15] differences it takes the three column
  slices, squares each (a slice times itself), sums along the columns and keeps the sums as [800000, 1] columns; it
  joins them behind the [800000, 32] radial values into the feature matrix, once for each filter, and runs each
  filter as two plain matrix products with a bias vector added along the rows and z · (1 / (1 + e⁻ᶻ)) between them.
  Row e of each result is the edge filter of row e of the radial values and of the differences.
-/
import proofs.«155197_j53154515255878_1_alg».proof.Proof.RefRead
import proofs.«155197_j53154515255878_1_alg».proof.Proof.Features
import proofs.«155197_j53154515255878_1_alg».proof.Proof.LibDense

noncomputable section

namespace Cert.ReferenceIdeal.Row

open Cert.ReferenceIdeal Cert.ReferenceIdeal.Gen Cert.ReferenceIdeal.Read Idealize.ShloMosaic
  Idealize.ShloMosaic.ValueIdx Cert.EdgeFilter

variable (x1 : (⟨S50000x15, .f32⟩ : BufTy).Contents (Elt Ideal)) (x2 x3 : (⟨S800000, .i32⟩ : BufTy).Contents (Elt Ideal))

/-! ## The three columns of squared norms -/

/-- The sum's initial value is zero. -/
theorem init_zero : (val_main_cst (F := Ideal)) (Shape.Idx.first h_S_) = 0 := Ideal.ofBits_zero_f32
theorem init_zero_3 : (val_main_cst_3 (F := Ideal)) (Shape.Idx.first h_S_) = 0 := Ideal.ofBits_zero_f32
theorem init_zero_4 : (val_main_cst_4 (F := Ideal)) (Shape.Idx.first h_S_) = 0 := Ideal.ofBits_zero_f32

/-- The first column at row e: the squared norm of components 0–2 of row e of the differences. -/
theorem col0_apply (e : Fin 800000) :
    val_main_v19 (F := Ideal) x1 x2 x3 (ix2 e (0 : Fin 1))
      = sqnorm (fun t => val_main_v14 (F := Ideal) x1 x2 x3 (ix2 e t)) 0 3 (by norm_num) := by
  rw [val_main_v19_apply, val_main_v18_apply, init_zero, zero_add]
  unfold sqnorm
  refine Finset.sum_congr rfl fun k _ => ?_
  rw [val_main_v17_apply, val_main_v15_apply, val_main_v16_apply]
  have hi : idx_main_v15 (idx_main_v18 (idx_main_v19 (ix2 e (0 : Fin 1))) k) = ix2 e ⟨0 + k.val, by have := k.isLt; omega⟩ :=
    funext fun a => Fin.ext (by
      match a with
      | ⟨0, _⟩ => rfl
      | ⟨1, _⟩ => exact (Nat.zero_add _).symm)
  have hi' : idx_main_v16 (idx_main_v18 (idx_main_v19 (ix2 e (0 : Fin 1))) k) = ix2 e ⟨0 + k.val, by have := k.isLt; omega⟩ :=
    funext fun a => Fin.ext (by
      match a with
      | ⟨0, _⟩ => rfl
      | ⟨1, _⟩ => exact (Nat.zero_add _).symm)
  rw [hi, hi']
  rfl

/-- The second column at row e: the squared norm of components 3–7. -/
theorem col1_apply (e : Fin 800000) :
    val_main_v24 (F := Ideal) x1 x2 x3 (ix2 e (0 : Fin 1))
      = sqnorm (fun t => val_main_v14 (F := Ideal) x1 x2 x3 (ix2 e t)) 3 5 (by norm_num) := by
  rw [val_main_v24_apply, val_main_v23_apply, init_zero_3, zero_add]
  unfold sqnorm
  refine Finset.sum_congr rfl fun k _ => ?_
  rw [val_main_v22_apply, val_main_v20_apply, val_main_v21_apply]
  have hi : idx_main_v20 (idx_main_v23 (idx_main_v24 (ix2 e (0 : Fin 1))) k) = ix2 e ⟨3 + k.val, by have := k.isLt; omega⟩ :=
    funext fun a => Fin.ext (by
      match a with
      | ⟨0, _⟩ => rfl
      | ⟨1, _⟩ => rfl)
  have hi' : idx_main_v21 (idx_main_v23 (idx_main_v24 (ix2 e (0 : Fin 1))) k) = ix2 e ⟨3 + k.val, by have := k.isLt; omega⟩ :=
    funext fun a => Fin.ext (by
      match a with
      | ⟨0, _⟩ => rfl
      | ⟨1, _⟩ => rfl)
  rw [hi, hi']
  rfl

/-- The third column at row e: the squared norm of components 8–14. -/
theorem col2_apply (e : Fin 800000) :
    val_main_v29 (F := Ideal) x1 x2 x3 (ix2 e (0 : Fin 1))
      = sqnorm (fun t => val_main_v14 (F := Ideal) x1 x2 x3 (ix2 e t)) 8 7 (by norm_num) := by
  rw [val_main_v29_apply, val_main_v28_apply, init_zero_4, zero_add]
  unfold sqnorm
  refine Finset.sum_congr rfl fun k _ => ?_
  rw [val_main_v27_apply, val_main_v25_apply, val_main_v26_apply]
  have hi : idx_main_v25 (idx_main_v28 (idx_main_v29 (ix2 e (0 : Fin 1))) k) = ix2 e ⟨8 + k.val, by have := k.isLt; omega⟩ :=
    funext fun a => Fin.ext (by
      match a with
      | ⟨0, _⟩ => rfl
      | ⟨1, _⟩ => rfl)
  have hi' : idx_main_v26 (idx_main_v28 (idx_main_v29 (ix2 e (0 : Fin 1))) k) = ix2 e ⟨8 + k.val, by have := k.isLt; omega⟩ :=
    funext fun a => Fin.ext (by
      match a with
      | ⟨0, _⟩ => rfl
      | ⟨1, _⟩ => rfl)
  rw [hi, hi']
  rfl

/-! ## The feature matrix, as each filter joins it -/

variable (x5 : (⟨S800000x32, .f32⟩ : BufTy).Contents (Elt Ideal))

/-- The first filter's feature matrix at (e, k). -/
theorem features_inv_apply (e : Fin 800000) (k : Fin 35) :
    val_main_v31 (F := Ideal) x1 x2 x3 x5 (ix2 e k)
      = feat (fun t => x5 (ix2 e t)) (fun t => val_main_v14 (F := Ideal) x1 x2 x3 (ix2 e t)) k := by
  unfold val_main_v31 val_main_v30
  exact Cert.Features.features_apply x5 _ _ _ concatenates_S800000x1_S800000x1_S800000x1_S800000x3_d1
    concatenates_S800000x32_S800000x3_S800000x35_d1 (fun t => val_main_v14 (F := Ideal) x1 x2 x3 (ix2 e t)) e
    (col0_apply x1 x2 x3 e) (col1_apply x1 x2 x3 e) (col2_apply x1 x2 x3 e) k

/-- The second filter's feature matrix at (e, k): the same join made again. -/
theorem features_ev_apply (e : Fin 800000) (k : Fin 35) :
    val_main_v41 (F := Ideal) x1 x2 x3 x5 (ix2 e k)
      = feat (fun t => x5 (ix2 e t)) (fun t => val_main_v14 (F := Ideal) x1 x2 x3 (ix2 e t)) k := by
  unfold val_main_v41 val_main_v30
  exact Cert.Features.features_apply x5 _ _ _ concatenates_S800000x1_S800000x1_S800000x1_S800000x3_d1
    concatenates_S800000x32_S800000x3_S800000x35_d1 (fun t => val_main_v14 (F := Ideal) x1 x2 x3 (ix2 e t)) e
    (col0_apply x1 x2 x3 e) (col1_apply x1 x2 x3 e) (col2_apply x1 x2 x3 e) k

/-! ## The two filters -/

/-- Row e of the first result: the 128-output filter of row e. -/
theorem inv_row_apply (x7 : (⟨S35x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (e : Fin 800000) (q : Fin 128) :
    val_main_v40 (F := Ideal) x1 x2 x3 x5 x7 x8 x9 x10 (ix2 e q)
      = filter (fun t => x5 (ix2 e t)) (fun t => val_main_v14 (F := Ideal) x1 x2 x3 (ix2 e t)) (fun k j => x7 (ix2 k j))
          (fun j => x8 (ix1 j)) (fun k j => x9 (ix2 k j)) (fun j => x10 (ix1 j)) q := by
  unfold val_main_v40 val_main_v37 val_main_v39 val_main_v38
  refine (Cert.LibDense.dot_bias_apply dot_S800000x128_S128x128_S800000x128_1_0_0_1_n_n rfl rfl lhs_main_v37_0 lhs_main_v37_1
    rhs_main_v37_0 rhs_main_v37_1 (val_main_v36 (F := Ideal) x1 x2 x3 x5 x7 x8) x9 x10 bcast_S128_S1x128_1
    bcast_S1x128_S800000x128_0_1 e q).trans ?_
  unfold filter
  refine congrArg (fun y : Fin 128 → EReal => dense y (fun k j => x9 (ix2 k j)) (fun j => x10 (ix1 j)) q) (funext fun j => ?_)
  unfold val_main_v36 val_main_call0_v5 val_main_call0_v4 val_main_call0_cst_0 val_main_call0_v3 val_main_call0_v2
    val_main_call0_cst val_main_call0_v1 val_main_call0_v0
  refine (Cert.LibDense.mul_inv_one_add_exp_neg_apply (val_main_v35 (F := Ideal) x1 x2 x3 x5 x7 x8) bcast_S_S800000x128
    (ix2 e j)).trans (congrArg silu ?_)
  unfold val_main_v35 val_main_v32 val_main_v34 val_main_v33
  refine (Cert.LibDense.dot_bias_apply dot_S800000x35_S35x128_S800000x128_1_0_0_1_n_n rfl rfl lhs_main_v32_0 lhs_main_v32_1
    rhs_main_v32_0 rhs_main_v32_1 (val_main_v31 (F := Ideal) x1 x2 x3 x5) x7 x8 bcast_S128_S1x128_1
    bcast_S1x128_S800000x128_0_1 e j).trans ?_
  exact congrArg (fun x : Fin 35 → EReal => dense x (fun k j => x7 (ix2 k j)) (fun j => x8 (ix1 j)) j)
    (funext fun k => features_inv_apply x1 x2 x3 x5 e k)

/-- Row e of the second result: the 3-output filter of row e. -/
theorem ev_row_apply (x11 : (⟨S35x128, .f32⟩ : BufTy).Contents (Elt Ideal)) (x12 : (⟨S128, .f32⟩ : BufTy).Contents (Elt Ideal))
    (x13 : (⟨S128x3, .f32⟩ : BufTy).Contents (Elt Ideal)) (x14 : (⟨S3, .f32⟩ : BufTy).Contents (Elt Ideal))
    (e : Fin 800000) (q : Fin 3) :
    val_main_v50 (F := Ideal) x1 x2 x3 x5 x11 x12 x13 x14 (ix2 e q)
      = filter (fun t => x5 (ix2 e t)) (fun t => val_main_v14 (F := Ideal) x1 x2 x3 (ix2 e t)) (fun k j => x11 (ix2 k j))
          (fun j => x12 (ix1 j)) (fun k j => x13 (ix2 k j)) (fun j => x14 (ix1 j)) q := by
  unfold val_main_v50 val_main_v47 val_main_v49 val_main_v48
  refine (Cert.LibDense.dot_bias_apply dot_S800000x128_S128x3_S800000x3_1_0_0_1_n_n rfl rfl lhs_main_v47_0 lhs_main_v47_1
    rhs_main_v47_0 rhs_main_v47_1 (val_main_v46 (F := Ideal) x1 x2 x3 x5 x11 x12) x13 x14 bcast_S3_S1x3_1
    bcast_S1x3_S800000x3_0_1 e q).trans ?_
  unfold filter
  refine congrArg (fun y : Fin 128 → EReal => dense y (fun k j => x13 (ix2 k j)) (fun j => x14 (ix1 j)) q) (funext fun j => ?_)
  unfold val_main_v46 val_main_call1_v5 val_main_call1_v4 val_main_call1_cst_0 val_main_call1_v3 val_main_call1_v2
    val_main_call1_cst val_main_call1_v1 val_main_call1_v0
  refine (Cert.LibDense.mul_inv_one_add_exp_neg_apply (val_main_v45 (F := Ideal) x1 x2 x3 x5 x11 x12) bcast_S_S800000x128
    (ix2 e j)).trans (congrArg silu ?_)
  unfold val_main_v45 val_main_v42 val_main_v44 val_main_v43
  refine (Cert.LibDense.dot_bias_apply dot_S800000x35_S35x128_S800000x128_1_0_0_1_n_n rfl rfl lhs_main_v42_0 lhs_main_v42_1
    rhs_main_v42_0 rhs_main_v42_1 (val_main_v41 (F := Ideal) x1 x2 x3 x5) x11 x12 bcast_S128_S1x128_1
    bcast_S1x128_S800000x128_0_1 e j).trans ?_
  exact congrArg (fun x : Fin 35 → EReal => dense x (fun k j => x11 (ix2 k j)) (fun j => x12 (ix1 j)) j)
    (funext fun k => features_ev_apply x1 x2 x3 x5 e k)

end Cert.ReferenceIdeal.Row

end
-- ==== Proof.lean ====
/-
  The two edge filters of a message-passing layer, computed blockwise on the TensorCore, against the plain
  formulation.

  Both programs gather, for each of 800000 edges, the two node rows its index vectors name and subtract them, and
  feed each edge's 32 radial values and the squared norms of the three pieces of its difference vector to two small
  perceptrons (35 → 128 → 128 and 35 → 128 → 3) with the activation z · σ(z). The kernel does this 3200 edges at a
  time with matrix-unit products in a narrower float format; the reference does it for all edges at once with plain
  products and writes σ as 1 / (1 + e⁻ᶻ). On the extended reals a change of float format is the identity, every
  product is the same finite sum and σ is one function, so the two results are the same array, entry by entry: the
  filter of each edge's own row (EdgeFilter.lean). Nothing here needs the inputs to be finite.
  The kernel's row-by-row value is KernelRow.lean and its blocks-to-array step KernelArray.lean; the reference's is
  RefRow.lean; Features.lean and LibDense.lean hold what both share.
-/
import proofs.«155197_j53154515255878_1_alg».proof.Defs
import proofs.«155197_j53154515255878_1_alg».proof.Proof.Gen.Kernel
import proofs.«155197_j53154515255878_1_alg».proof.Proof.Gen.Kernel.Skeleton
import proofs.«155197_j53154515255878_1_alg».proof.Proof.Gen.Kernel.Launch
import proofs.«155197_j53154515255878_1_alg».proof.Proof.Gen.Kernel.Points
import proofs.«155197_j53154515255878_1_alg».proof.Proof.Gen.Kernel.Frame
import proofs.«155197_j53154515255878_1_alg».proof.Proof.Gen.KernelIdeal
import proofs.«155197_j53154515255878_1_alg».proof.Proof.Gen.KernelIdeal.Skeleton
import proofs.«155197_j53154515255878_1_alg».proof.Proof.Gen.KernelIdeal.Launch
import proofs.«155197_j53154515255878_1_alg».proof.Proof.Gen.KernelIdeal.Points
import proofs.«155197_j53154515255878_1_alg».proof.Proof.Gen.KernelIdeal.Frame
import proofs.«155197_j53154515255878_1_alg».proof.Proof.Gen.ReferenceIdeal
import proofs.«155197_j53154515255878_1_alg».proof.Proof.Gen.Pre_finite_inputs
import proofs.«155197_j53154515255878_1_alg».proof.Proof.Gen.KernelIdeal.Value
import proofs.«155197_j53154515255878_1_alg».proof.Proof.KernelArray
import proofs.«155197_j53154515255878_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's differences are the kernel's: the same gathers and subtraction of the same arguments. -/
theorem diff_eq (ev : FVec Ideal Cert.KernelIdeal.S50000x15 .f32) (s r : IVec Cert.KernelIdeal.S800000 32) :
    Cert.ReferenceIdeal.Read.val_main_v14 (F := Ideal) ev s r = Cert.KernelIdeal.Rows.evDiff ev s r := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with each result at the filter of every edge's own row. -/
theorem algebraic : Cert.algebraic_KernelIdeal_ReferenceIdeal := by
  intro m ρ m' ρ' _ hagree
  refine ⟨fun c => Cert.KernelIdeal.Rows.invRows m c, fun c => Cert.KernelIdeal.Rows.evRows m c,
    Cert.KernelIdeal.Rows.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨-, a1, a2, a3, -, a5, -, a7, a8, a9, a10, -⟩ := hagree c
    rw [Cert.ReferenceIdeal.Read.val_main_v40_eq, a1, a2, a3, a5, a7, a8, a9, a10]
    funext i
    obtain ⟨e, q, rfl⟩ : ∃ (e : Fin 800000) (q : Fin 128), i = ix2 e q := ⟨i 0, i 1, eq_ix2 i⟩
    rw [Cert.ReferenceIdeal.Row.inv_row_apply, diff_eq]
    rfl
  · obtain ⟨-, a1, a2, a3, -, a5, -, -, -, -, -, a11, a12, a13, a14⟩ := hagree c
    rw [Cert.ReferenceIdeal.Read.val_main_v50_eq, a1, a2, a3, a5, a11, a12, a13, a14]
    funext i
    obtain ⟨e, q, rfl⟩ : ∃ (e : Fin 800000) (q : Fin 3), i = ix2 e q := ⟨i 0, i 1, eq_ix2 i⟩
    rw [Cert.ReferenceIdeal.Row.ev_row_apply, diff_eq]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
